-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x1000x513x1 : Shape := ⟨4, ![5, 1000, 513, 1]⟩
abbrev S20000000 : Shape := ⟨1, ![20000000]⟩
abbrev S_ : Shape := ⟨0, ![]⟩

class Facts : Prop where
  bcast_S_S5x1000x513x1 : S_.BroadcastsInDim S5x1000x513x1 (![] : Fin 0 → Fin S5x1000x513x1.rank)
  reducesTo_S5x1000x513x1_S_d0_1_2_3 : S5x1000x513x1.ReducesTo [0, 1, 2, 3] S_
  h_S_ : 0 < S_.numel
  bcast_S_S20000000 : S_.BroadcastsInDim S20000000 (![] : Fin 0 → Fin S20000000.rank)
  reducesTo_S20000000_S_d0 : S20000000.ReducesTo [0] S_

variable [Facts]

def fn {F : FTy → Type} [FloatOps F] (main_arg0 : FVec F S5x1000x513x1 .f32) (main_arg1 : FVec F S20000000 .f32) (main_arg2 : IVec S20000000 32) (main_arg3 : IVec S20000000 32) : IVec S_ 1 :=
  let main_v0 : FVec F S5x1000x513x1 .f32 := Host.absf main_arg0
  let main_cst : FVec F S_ .f32 := constant S_ .f32 0x7F800000#32
  let main_v1 : FVec F S5x1000x513x1 .f32 := broadcastInDim S5x1000x513x1 ![] bcast_S_S5x1000x513x1 main_cst
  let main_v2 : IVec S5x1000x513x1 1 := cmpf .olt main_v0 main_v1
  let main_c : IVec S_ 1 := constantI S_ 1 1#1
  let main_v3 : IVec S_ 1 := (fun x v => Host.reduce IntOp.andi x v reducesTo_S5x1000x513x1_S_d0_1_2_3 h_S_) main_v2 main_c
  let main_v4 : FVec F S20000000 .f32 := Host.absf main_arg1
  let main_cst_0 : FVec F S_ .f32 := constant S_ .f32 0x7F800000#32
  let main_v5 : FVec F S20000000 .f32 := broadcastInDim S20000000 ![] bcast_S_S20000000 main_cst_0
  let main_v6 : IVec S20000000 1 := cmpf .olt main_v4 main_v5
  let main_c_1 : IVec S_ 1 := constantI S_ 1 1#1
  let main_v7 : IVec S_ 1 := (fun x v => Host.reduce IntOp.andi x v reducesTo_S20000000_S_d0 h_S_) main_v6 main_c_1
  let main_v8 : IVec S_ 1 := andi main_v3 main_v7
  let main_c_2 : IVec S_ 32 := constantI S_ 32 0#32
  let main_v9 : IVec S20000000 32 := broadcastInDim S20000000 ![] bcast_S_S20000000 main_c_2
  let main_v10 : IVec S20000000 1 := cmpi .sge main_arg3 main_v9
  let main_c_3 : IVec S_ 32 := constantI S_ 32 513000#32
  let main_v11 : IVec S20000000 32 := broadcastInDim S20000000 ![] bcast_S_S20000000 main_c_3
  let main_v12 : IVec S20000000 1 := cmpi .slt main_arg3 main_v11
  let main_v13 : IVec S20000000 1 := andi main_v10 main_v12
  let main_c_4 : IVec S_ 1 := constantI S_ 1 1#1
  let main_v14 : IVec S_ 1 := (fun x v => Host.reduce IntOp.andi x v reducesTo_S20000000_S_d0 h_S_) main_v13 main_c_4
  let main_v15 : IVec S_ 1 := andi main_v8 main_v14
  main_v15
-- ==== Kernel.lean ====
abbrev S5x1000x513x1 : Shape := ⟨4, ![5, 1000, 513, 1]⟩
abbrev S20000000 : Shape := ⟨1, ![20000000]⟩
abbrev S5x513000 : Shape := ⟨2, ![5, 513000]⟩
abbrev S_ : Shape := ⟨0, ![]⟩
abbrev S20971520 : Shape := ⟨1, ![20971520]⟩
abbrev S20971520x1 : Shape := ⟨2, ![20971520, 1]⟩
abbrev S1 : Shape := ⟨1, ![1]⟩
abbrev S1x1 : Shape := ⟨2, ![1, 1]⟩
abbrev S5x20971520 : Shape := ⟨2, ![5, 20971520]⟩
abbrev S5x163840x128 : Shape := ⟨3, ![5, 163840, 128]⟩
abbrev S163840x128 : Shape := ⟨2, ![163840, 128]⟩
abbrev S1x8192x128 : Shape := ⟨3, ![1, 8192, 128]⟩
abbrev S8192x128 : Shape := ⟨2, ![8192, 128]⟩
abbrev S1x20971520 : Shape := ⟨2, ![1, 20971520]⟩
abbrev S6x20971520 : Shape := ⟨2, ![6, 20971520]⟩
abbrev S20971520x6 : Shape := ⟨2, ![20971520, 6]⟩
abbrev S131044x6 : Shape := ⟨2, ![131044, 6]⟩
abbrev S131044x5 : Shape := ⟨2, ![131044, 5]⟩
abbrev S5x131044 : Shape := ⟨2, ![5, 131044]⟩
abbrev S131044x1 : Shape := ⟨2, ![131044, 1]⟩
abbrev S131044 : Shape := ⟨1, ![131044]⟩
abbrev S1x131044 : Shape := ⟨2, ![1, 131044]⟩
abbrev S5x362x362x1 : Shape := ⟨4, ![5, 362, 362, 1]⟩

abbrev nBuf : Space → Nat
  | .hbm => 56
  | .vmem => 6
  | .smem => 0
  | _ => 0

abbrev bufTy : (tb : Table) → Fin (tcTables nBuf tb) → BufTy
  | .hbm, ⟨0, _⟩ => ⟨S5x1000x513x1, .f32⟩
  | .hbm, ⟨1, _⟩ => ⟨S20000000, .f32⟩
  | .hbm, ⟨2, _⟩ => ⟨S20000000, .i32⟩
  | .hbm, ⟨3, _⟩ => ⟨S20000000, .i32⟩
  | .hbm, ⟨4, _⟩ => ⟨S5x513000, .f32⟩
  | .hbm, ⟨5, _⟩ => ⟨S_, .i32⟩
  | .hbm, ⟨6, _⟩ => ⟨S_, .i32⟩
  | .hbm, ⟨7, _⟩ => ⟨S20971520, .i32⟩
  | .hbm, ⟨8, _⟩ => ⟨S_, .f32⟩
  | .hbm, ⟨9, _⟩ => ⟨S_, .f32⟩
  | .hbm, ⟨10, _⟩ => ⟨S20971520, .f32⟩
  | .hbm, ⟨11, _⟩ => ⟨S_, .i32⟩
  | .hbm, ⟨12, _⟩ => ⟨S_, .i32⟩
  | .hbm, ⟨13, _⟩ => ⟨S20971520, .i32⟩
  | .hbm, ⟨14, _⟩ => ⟨S_, .i32⟩
  | .hbm, ⟨15, _⟩ => ⟨S20971520, .i32⟩
  | .hbm, ⟨16, _⟩ => ⟨S20971520, .i1⟩
  | .hbm, ⟨17, _⟩ => ⟨S_, .i32⟩
  | .hbm, ⟨18, _⟩ => ⟨S20971520, .i32⟩
  | .hbm, ⟨19, _⟩ => ⟨S20971520, .i32⟩
  | .hbm, ⟨20, _⟩ => ⟨S20971520, .i32⟩
  | .hbm, ⟨21, _⟩ => ⟨S20971520x1, .i32⟩
  | .hbm, ⟨22, _⟩ => ⟨S1, .i32⟩
  | .hbm, ⟨23, _⟩ => ⟨S_, .i32⟩
  | .hbm, ⟨24, _⟩ => ⟨S20971520x1, .i32⟩
  | .hbm, ⟨25, _⟩ => ⟨S20971520x1, .i1⟩
  | .hbm, ⟨26, _⟩ => ⟨S1x1, .i32⟩
  | .hbm, ⟨27, _⟩ => ⟨S20971520x1, .i32⟩
  | .hbm, ⟨28, _⟩ => ⟨S20971520x1, .i1⟩
  | .hbm, ⟨29, _⟩ => ⟨S20971520x1, .i1⟩
  | .hbm, ⟨30, _⟩ => ⟨S_, .i1⟩
  | .hbm, ⟨31, _⟩ => ⟨S20971520, .i1⟩
  | .hbm, ⟨32, _⟩ => ⟨S5x20971520, .f32⟩
  | .hbm, ⟨33, _⟩ => ⟨S5x20971520, .i1⟩
  | .hbm, ⟨34, _⟩ => ⟨S_, .f32⟩
  | .hbm, ⟨35, _⟩ => ⟨S5x20971520, .f32⟩
  | .hbm, ⟨36, _⟩ => ⟨S5x20971520, .f32⟩
  | .hbm, ⟨37, _⟩ => ⟨S5x163840x128, .f32⟩
  | .hbm, ⟨38, _⟩ => ⟨S163840x128, .f32⟩
  | .hbm, ⟨39, _⟩ => ⟨S5x163840x128, .f32⟩
  | .hbm, ⟨40, _⟩ => ⟨S5x20971520, .f32⟩
  | .hbm, ⟨41, _⟩ => ⟨S1x20971520, .f32⟩
  | .hbm, ⟨42, _⟩ => ⟨S6x20971520, .f32⟩
  | .hbm, ⟨43, _⟩ => ⟨S20971520x6, .f32⟩
  | .hbm, ⟨44, _⟩ => ⟨S_, .f32⟩
  | .hbm, ⟨45, _⟩ => ⟨S131044x6, .f32⟩
  | .hbm, ⟨46, _⟩ => ⟨S20971520x1, .i32⟩
  | .hbm, ⟨47, _⟩ => ⟨S131044x6, .f32⟩
  | .hbm, ⟨48, _⟩ => ⟨S131044x5, .f32⟩
  | .hbm, ⟨49, _⟩ => ⟨S5x131044, .f32⟩
  | .hbm, ⟨50, _⟩ => ⟨S131044x1, .f32⟩
  | .hbm, ⟨51, _⟩ => ⟨S131044, .f32⟩
  | .hbm, ⟨52, _⟩ => ⟨S1x131044, .f32⟩
  | .hbm, ⟨53, _⟩ => ⟨S5x131044, .f32⟩
  | .hbm, ⟨54, _⟩ => ⟨S5x131044, .f32⟩
  | .hbm, ⟨55, _⟩ => ⟨S5x362x362x1, .f32⟩
  | .local _ .vmem, ⟨0, _⟩ => ⟨S1x8192x128, .f32⟩
  | .local _ .vmem, ⟨1, _⟩ => ⟨S1x8192x128, .f32⟩
  | .local _ .vmem, ⟨2, _⟩ => ⟨S8192x128, .f32⟩
  | .local _ .vmem, ⟨3, _⟩ => ⟨S8192x128, .f32⟩
  | .local _ .vmem, ⟨4, _⟩ => ⟨S1x8192x128, .f32⟩
  | .local _ .vmem, ⟨5, _⟩ => ⟨S1x8192x128, .f32⟩
  | _, _ => ⟨S5x1000x513x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_v2 : Ref sig .tc := ⟨.hbm, 10, rfl⟩
abbrev main_c_0 : Ref sig .tc := ⟨.hbm, 11, rfl⟩
abbrev main_call2_v0 : Ref sig .tc := ⟨.hbm, 12, rfl⟩
abbrev main_v3 : Ref sig .tc := ⟨.hbm, 13, rfl⟩
abbrev main_call3_c : Ref sig .tc := ⟨.hbm, 14, rfl⟩
abbrev main_call3_v0 : Ref sig .tc := ⟨.hbm, 15, rfl⟩
abbrev main_call3_v1 : Ref sig .tc := ⟨.hbm, 16, rfl⟩
abbrev main_call3_c_0 : Ref sig .tc := ⟨.hbm, 17, rfl⟩
abbrev main_call3_v2 : Ref sig .tc := ⟨.hbm, 18, rfl⟩
abbrev main_call3_v3 : Ref sig .tc := ⟨.hbm, 19, rfl⟩
abbrev main_call3_v4 : Ref sig .tc := ⟨.hbm, 20, rfl⟩
abbrev main_call3_v5 : Ref sig .tc := ⟨.hbm, 21, rfl⟩
abbrev main_call3_c_1 : Ref sig .tc := ⟨.hbm, 22, rfl⟩
abbrev main_call3_c_2 : Ref sig .tc := ⟨.hbm, 23, rfl⟩
abbrev main_call3_v6 : Ref sig .tc := ⟨.hbm, 24, rfl⟩
abbrev main_call3_v7 : Ref sig .tc := ⟨.hbm, 25, rfl⟩
abbrev main_call3_v8 : Ref sig .tc := ⟨.hbm, 26, rfl⟩
abbrev main_call3_v9 : Ref sig .tc := ⟨.hbm, 27, rfl⟩
abbrev main_call3_v10 : Ref sig .tc := ⟨.hbm, 28, rfl⟩
abbrev main_call3_v11 : Ref sig .tc := ⟨.hbm, 29, rfl⟩
abbrev main_call3_c_3 : Ref sig .tc := ⟨.hbm, 30, rfl⟩
abbrev main_call3_v12 : Ref sig .tc := ⟨.hbm, 31, rfl⟩
abbrev main_call3_v13 : Ref sig .tc := ⟨.hbm, 32, rfl⟩
abbrev main_call3_v14 : Ref sig .tc := ⟨.hbm, 33, rfl⟩
abbrev main_call3_cst : Ref sig .tc := ⟨.hbm, 34, rfl⟩
abbrev main_call3_v15 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S5x1000x513x1_S5x513000 : S5x1000x513x1.ShapeCasts S5x513000
  pads_S20000000_S20971520_09715200 : S20000000.Pads (![0] : Fin 1 → Nat) ![971520] ![0] S20971520
  h_S_ : 0 < S_.numel
  bcast_S_S20971520 : S_.BroadcastsInDim S20971520 (![] : Fin 0 → Fin S20971520.rank)
  bcast_S20971520_S20971520x1_0 : S20971520.BroadcastsInDim S20971520x1 (![0] : Fin 1 → Fin S20971520x1.rank)
  bcast_S_S20971520x1 : S_.BroadcastsInDim S20971520x1 (![] : Fin 0 → Fin S20971520x1.rank)
  bcast_S1_S1x1_1 : S1.BroadcastsInDim S1x1 (![1] : Fin 1 → Fin S1x1.rank)
  bcast_S1x1_S20971520x1_0_1 : S1x1.BroadcastsInDim S20971520x1 (![0, 1] : Fin 2 → Fin S20971520x1.rank)
  reducesTo_S20971520x1_S20971520_d1 : S20971520x1.ReducesTo [1] S20971520
  bcast_S20971520_S5x20971520_1 : S20971520.BroadcastsInDim S5x20971520 (![1] : Fin 1 → Fin S5x20971520.rank)
  bcast_S_S5x20971520 : S_.BroadcastsInDim S5x20971520 (![] : Fin 0 → Fin S5x20971520.rank)
  shapeCasts_S5x20971520_S5x163840x128 : S5x20971520.ShapeCasts S5x163840x128
  shapeCasts_S20971520_S163840x128 : S20971520.ShapeCasts S163840x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S1x8192x128 : S1x8192x128.ShapeCasts S1x8192x128
  shapeCasts_S8192x128_S1x8192x128 : S8192x128.ShapeCasts S1x8192x128
  shapeCasts_S5x163840x128_S5x20971520 : S5x163840x128.ShapeCasts S5x20971520
  bcast_S20971520_S1x20971520_1 : S20971520.BroadcastsInDim S1x20971520 (![1] : Fin 1 → Fin S1x20971520.rank)
  concatenates_S5x20971520_S1x20971520_S6x20971520_d0 : Shape.Concatenates [S5x20971520, S1x20971520] S6x20971520 0
  transposes_S6x20971520_S20971520x6_1_0 : S6x20971520.Transposes [1, 0] S20971520x6
  bcast_S_S131044x6 : S_.BroadcastsInDim S131044x6 (![] : Fin 0 → Fin S131044x6.rank)
  slices_S131044x6_S131044x5_0_0 : S131044x6.Slices ![0, 0] S131044x5
  transposes_S131044x5_S5x131044_1_0 : S131044x5.Transposes [1, 0] S5x131044
  slices_S131044x6_S131044x1_0_5 : S131044x6.Slices ![0, 5] S131044x1
  shapeCasts_S131044x1_S131044 : S131044x1.ShapeCasts S131044
  bcast_S131044_S1x131044_1 : S131044.BroadcastsInDim S1x131044 (![1] : Fin 1 → Fin S1x131044.rank)
  bcast_S1x131044_S5x131044_0_1 : S1x131044.BroadcastsInDim S5x131044 (![0, 1] : Fin 2 → Fin S5x131044.rank)
  shapeCasts_S5x131044_S5x362x362x1 : S5x131044.ShapeCasts S5x362x362x1
  gather_S5x513000_S20971520x1_S5x20971520_0_1_n_n_1_1_51_wf : GatherDims.WF S5x513000 S20971520x1 S5x20971520 [0] [1] [] [1] [] 1 ![5, 1]
  scatter_S131044x6_S20971520x1_S20971520x6_1_0_0_1_wf : ScatterDims.WF S131044x6 S20971520x1 S20971520x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S5x163840x128.size a
  hwx0_0 : ∀ i : grid0.Coords, EltTy.bits .f32 = 32 ∨ (Rect.block (s := S5x163840x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S163840x128.size a
  hwx0_1 : ∀ i : grid0.Coords, EltTy.bits .f32 = 32 ∨ (Rect.block (s := S163840x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x128.size a ≤ S5x163840x128.size a
  hwx0_2 : ∀ i : grid0.Coords, EltTy.bits .f32 = 32 ∨ (Rect.block (s := S5x163840x128) S1x8192x128.size (cc0_transform_2 i) (hinb0_2 i)).WholeWords (EltTy.packing .f32)

variable [Facts₀]

def gather_S5x513000_S20971520x1_S5x20971520_0_1_n_n_1_1_51 : GatherDims S5x513000 S20971520x1 S5x20971520 where
  offsetDims := [0]
  collapsedSliceDims := [1]
  operandBatchingDims := []
  startIndicesBatchingDims := []
  startIndexMap := [1]
  indexVectorDim := 1
  sliceSizes := ![5, 1]
  wf := gather_S5x513000_S20971520x1_S5x20971520_0_1_n_n_1_1_51_wf
def scatter_S131044x6_S20971520x1_S20971520x6_1_0_0_1 : ScatterDims S131044x6 S20971520x1 S20971520x6 where
  updateWindowDims := [1]
  insertedWindowDims := [0]
  scatterDimsToOperandDims := [0]
  indexVectorDim := 1
  wf := scatter_S131044x6_S20971520x1_S20971520x6_1_0_0_1_wf

abbrev win0_0 : Pipeline.Window sig grid0 :=
  Pipeline.Window.ofSpec (Memref.whole main_v5) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5x1000x513x1 : Shape := ⟨4, ![5, 1000, 513, 1]⟩
abbrev S20000000 : Shape := ⟨1, ![20000000]⟩
abbrev S5x513000 : Shape := ⟨2, ![5, 513000]⟩
abbrev S_ : Shape := ⟨0, ![]⟩
abbrev S20000000x1 : Shape := ⟨2, ![20000000, 1]⟩
abbrev S5x20000000 : Shape := ⟨2, ![5, 20000000]⟩
abbrev S1x20000000 : Shape := ⟨2, ![1, 20000000]⟩
abbrev S131044 : Shape := ⟨1, ![131044]⟩
abbrev S5x131044 : Shape := ⟨2, ![5, 131044]⟩
abbrev S1x131044 : Shape := ⟨2, ![1, 131044]⟩
abbrev S5x362x362x1 : Shape := ⟨4, ![5, 362, 362, 1]⟩

abbrev nBuf : Space → Nat
  | .hbm => 30
  | .vmem => 0
  | .smem => 0
  | _ => 0

abbrev bufTy : (tb : Table) → Fin (tcTables nBuf tb) → BufTy
  | .hbm, ⟨0, _⟩ => ⟨S5x1000x513x1, .f32⟩
  | .hbm, ⟨1, _⟩ => ⟨S20000000, .f32⟩
  | .hbm, ⟨2, _⟩ => ⟨S20000000, .i32⟩
  | .hbm, ⟨3, _⟩ => ⟨S20000000, .i32⟩
  | .hbm, ⟨4, _⟩ => ⟨S5x513000, .f32⟩
  | .hbm, ⟨5, _⟩ => ⟨S_, .i32⟩
  | .hbm, ⟨6, _⟩ => ⟨S20000000, .i32⟩
  | .hbm, ⟨7, _⟩ => ⟨S20000000, .i1⟩
  | .hbm, ⟨8, _⟩ => ⟨S_, .i32⟩
  | .hbm, ⟨9, _⟩ => ⟨S20000000, .i32⟩
  | .hbm, ⟨10, _⟩ => ⟨S20000000, .i32⟩
  | .hbm, ⟨11, _⟩ => ⟨S20000000, .i32⟩
  | .hbm, ⟨12, _⟩ => ⟨S20000000x1, .i32⟩
  | .hbm, ⟨13, _⟩ => ⟨S5x20000000, .f32⟩
  | .hbm, ⟨14, _⟩ => ⟨S1x20000000, .f32⟩
  | .hbm, ⟨15, _⟩ => ⟨S5x20000000, .f32⟩
  | .hbm, ⟨16, _⟩ => ⟨S5x20000000, .f32⟩
  | .hbm, ⟨17, _⟩ => ⟨S_, .f32⟩
  | .hbm, ⟨18, _⟩ => ⟨S131044, .f32⟩
  | .hbm, ⟨19, _⟩ => ⟨S20000000x1, .i32⟩
  | .hbm, ⟨20, _⟩ => ⟨S5x131044, .f32⟩
  | .hbm, ⟨21, _⟩ => ⟨S5x131044, .f32⟩
  | .hbm, ⟨22, _⟩ => ⟨S_, .f32⟩
  | .hbm, ⟨23, _⟩ => ⟨S131044, .f32⟩
  | .hbm, ⟨24, _⟩ => ⟨S20000000x1, .i32⟩
  | .hbm, ⟨25, _⟩ => ⟨S131044, .f32⟩
  | .hbm, ⟨26, _⟩ => ⟨S1x131044, .f32⟩
  | .hbm, ⟨27, _⟩ => ⟨S5x131044, .f32⟩
  | .hbm, ⟨28, _⟩ => ⟨S5x131044, .f32⟩
  | .hbm, ⟨29, _⟩ => ⟨S5x362x362x1, .f32⟩
  | _, _ => ⟨S5x1000x513x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  shapeCasts_S5x1000x513x1_S5x513000 : S5x1000x513x1.ShapeCasts S5x513000
  bcast_S_S20000000 : S_.BroadcastsInDim S20000000 (![] : Fin 0 → Fin S20000000.rank)
  bcast_S20000000_S20000000x1_0 : S20000000.BroadcastsInDim S20000000x1 (![0] : Fin 1 → Fin S20000000x1.rank)
  bcast_S20000000_S1x20000000_1 : S20000000.BroadcastsInDim S1x20000000 (![1] : Fin 1 → Fin S1x20000000.rank)
  bcast_S1x20000000_S5x20000000_0_1 : S1x20000000.BroadcastsInDim S5x20000000 (![0, 1] : Fin 2 → Fin S5x20000000.rank)
  bcast_S_S131044 : S_.BroadcastsInDim S131044 (![] : Fin 0 → Fin S131044.rank)
  bcast_S131044_S5x131044_1 : S131044.BroadcastsInDim S5x131044 (![1] : Fin 1 → Fin S5x131044.rank)
  bcast_S131044_S1x131044_1 : S131044.BroadcastsInDim S1x131044 (![1] : Fin 1 → Fin S1x131044.rank)
  bcast_S1x131044_S5x131044_0_1 : S1x131044.BroadcastsInDim S5x131044 (![0, 1] : Fin 2 → Fin S5x131044.rank)
  shapeCasts_S5x131044_S5x362x362x1 : S5x131044.ShapeCasts S5x362x362x1
  gather_S5x513000_S20000000x1_S5x20000000_0_1_n_n_1_1_51_wf : GatherDims.WF S5x513000 S20000000x1 S5x20000000 [0] [1] [] [1] [] 1 ![5, 1]
  scatter_S5x131044_S20000000x1_S5x20000000_0_1_1_1_wf : ScatterDims.WF S5x131044 S20000000x1 S5x20000000 [0] [1] [1] 1
  scatter_S131044_S20000000x1_S20000000_n_0_0_1_wf : ScatterDims.WF S131044 S20000000x1 S20000000 [] [0] [0] 1

variable [Facts₀]

def gather_S5x513000_S20000000x1_S5x20000000_0_1_n_n_1_1_51 : GatherDims S5x513000 S20000000x1 S5x20000000 where
  offsetDims := [0]
  collapsedSliceDims := [1]
  operandBatchingDims := []
  startIndicesBatchingDims := []
  startIndexMap := [1]
  indexVectorDim := 1
  sliceSizes := ![5, 1]
  wf := gather_S5x513000_S20000000x1_S5x20000000_0_1_n_n_1_1_51_wf
def scatter_S5x131044_S20000000x1_S5x20000000_0_1_1_1 : ScatterDims S5x131044 S20000000x1 S5x20000000 where
  updateWindowDims := [0]
  insertedWindowDims := [1]
  scatterDimsToOperandDims := [1]
  indexVectorDim := 1
  wf := scatter_S5x131044_S20000000x1_S5x20000000_0_1_1_1_wf
def scatter_S131044_S20000000x1_S20000000_n_0_0_1 : ScatterDims S131044 S20000000x1 S20000000 where
  updateWindowDims := []
  insertedWindowDims := [0]
  scatterDimsToOperandDims := [0]
  indexVectorDim := 1
  wf := scatter_S131044_S20000000x1_S20000000_n_0_0_1_wf

class Facts : Prop extends Facts₀ where

variable [Facts]
-- ==== Proof.Spec.lean ====
/-
  The column words of a sparse back-projection, as both programs read them.

  An entry of the column array is a 32-bit word. Indexing along the flattened sinogram axis (513000 entries)
  first counts a negative word from the end, then reads the result signed and clamps it into the axis. A take
  that fills out-of-range reads also tests the wrapped word against the two ends of the axis before it reads.
  These three readings are named here once, so that the kernel's side and the reference's side speak of the
  same column.
-/
import Idealize.ShloMosaic.PureOps.Ideal
import Idealize.ShloMosaic.Lib.ValueIdx

noncomputable section

namespace Cert.Spec

open Idealize.ShloMosaic Idealize.ShloMosaic.ValueIdx

/-- A column word as indexing reads it along an axis of 513000 entries: a negative word counts from the end. -/
def wrapCol (c : BitVec 32) : BitVec 32 :=
  Scalar.select (IntOp.cmpi .slt c 0#32) (IntOp.addi c 513000#32) c

/-- The column a gather reads for the word `c`: the wrapped word read signed and clamped into the axis. -/
def colAt (c : BitVec 32) : Fin 513000 := ⟨min (wrapCol c).toInt.toNat 512999, by omega⟩

/-- The wrapped word lies inside the axis: the test a filling take applies before it keeps what it read. -/
def ColOk (c : BitVec 32) : Prop :=
  IntOp.cmpi .sge (wrapCol c) 0#32 = 1#1 ∧ IntOp.cmpi .sle (wrapCol c) 512999#32 = 1#1

/-- The stated domain of one column word: it names an entry of the axis, `0 ≤ c < 513000` as signed words. -/
def ColInRange (c : BitVec 32) : Prop :=
  IntOp.cmpi .sge c 0#32 = 1#1 ∧ IntOp.cmpi .slt c 513000#32 = 1#1

end Cert.Spec

end
-- ==== Proof.Region.lean ====
/-
  The one region of the kernel, read as a value over the extended reals.

  The grid is 20 row-tiles × 5 batch rows. Point (tile, b) multiplies block (b, tile) of the gathered
  array — a [1 × 8192 × 128] block of the [5 × 163840 × 128] array — entrywise by block tile of the
  weights — an [8192 × 128] block of the [163840 × 128] array, viewed [1 × 8192 × 128] — and writes
  block (b, tile) of the output. The blocks (b, tile), b < 5, tile < 20, tile the output array, so the
  whole array ends as the entrywise product: at (b, r, l) the gathered entry (b, r, l) times the weight (r, l).

  The steps: the index maps' relations, decided over the 100 grid points; the body's payload at an index
  of a block (a product, the weights' block read without its unit axis); what a point writes back is
  its block of the product array (each block's coordinate is index × size + the coordinate inside the
  block); an array index is in a point's block iff each coordinate is in the block's range; every array
  index is in some point's block (rows r / 8192, batch b); hence the array is the product array.
-/
import proofs.«426425_j15951508538156_3_alg».proof.Proof.Gen.KernelIdeal.Frame
import proofs.«426425_j15951508538156_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Region

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The gathered activations as the region finds them, [5 × 163840 × 128]. -/
abbrev gArr (c : Dev nD) : FVec Ideal S5x163840x128 .f32 := V m c main_v5
/-- The padded weights as the region finds them, [163840 × 128]. -/
abbrev vArr (c : Dev nD) : FVec Ideal S163840x128 .f32 := V m c main_v6

/-- The entrywise product of the gathered activations and the weights: at (b, r, l), gathered (b, r, l) times weight (r, l). -/
abbrev prodArr (c : Dev nD) : FVec Ideal S5x163840x128 .f32 := fun y => gArr m c y * vArr m c (ix2 (y 1) (y 2))

/-- The zero offsets of a rank-2 and a rank-3 whole-block access. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The index maps, decided over the grid: the gathered block moves with the output block on every axis; the weights
    block's row-tile is the output's row-tile, its lane block the only one; the output's lane block is the only one, its
    batch row is below 5 and its row-tile below 20. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = 0
    ∧ win0_2.index t (2 : Fin 3) = 0
    ∧ win0_2.index t (0 : Fin 3) ≤ 4
    ∧ win0_2.index t (1 : Fin 3) ≤ 19 :=
  (by decide +kernel : ∀ t : Fin grid0.N, _)

/-- Every (batch row, row-tile) pair is some point's output block. -/
theorem index_onto : ∀ (b : Fin 5) (tile : Fin 20), ∃ t : Fin cfg0.N, win0_2.index t = ![b.val, tile.val, 0] :=
  (by decide +kernel : ∀ (b : Fin 5) (tile : Fin 20), ∃ t : Fin grid0.N, win0_2.index t = ![b.val, tile.val, 0])

/-- The body's payload at an index of the block: the gathered block's entry there times the weights block's entry at
    the same row and lane. -/
theorem payload_apply (x1 : Vec Ideal S8192x128 .f32) (x0 : Vec Ideal S1x8192x128 .f32) (y : S1x8192x128.Idx) :
    k0_pay1 x1 x0 y = x0 y * x1 (ix2 (y 1) (y 2)) := by
  unfold k0_pay1
  refine (mulf_apply _ _ y).trans ?_
  rw [shapeCast_self, shapeCast_self]
  refine congrArg (x0 y * ·) ?_
  rw [eq_ix3 y]
  exact shapeCast_ab_1ab_apply x1 _ (y 0) (y 1) (y 2)

/-- The two input windows' arrays are the gathered activations and the weights: window 0's reference is the gathered
    buffer and window 1's the weights buffer, so any family indexed by references takes the same value at a window's
    reference and at that buffer. -/
theorem gathered_ref (c : Dev nD) (f : (b : Ref sig .tc) → Buf (Elt Ideal) ((c : Thread nD τ).loc b)) :
    f (Pipeline.arrRef spec0 0) = f main_v5 := rfl
theorem weights_ref (c : Dev nD) (f : (b : Ref sig .tc) → Buf (Elt Ideal) ((c : Thread nD τ).loc b)) :
    f (Pipeline.arrRef spec0 1) = f main_v6 := rfl

/-- The gathered block at point `t` is the gathered array read through window 0's block. -/
theorem gathered_iblk (c : Dev nD) (t : Fin cfg0.N) :
    iblk m c 0 t = ((cfg0.win 0).blk t).view.read (Elt Ideal) (gArr m c) := by
  unfold iblk
  rw [gathered_ref c (V m c)]
/-- The weights block at point `t` is the weights array read through window 1's block. -/
theorem weights_iblk (c : Dev nD) (t : Fin cfg0.N) :
    iblk m c 1 t = ((cfg0.win 1).blk t).view.read (Elt Ideal) (vArr m c) := by
  unfold iblk
  rw [weights_ref c (V m c)]

/-- An entry of window 0's block at point `t`, read off any array of the gathered array's shape, is that array's entry at
    the block's place: on each axis the block index times the block's size plus the coordinate inside the block. -/
theorem gathered_block_read (t : Fin cfg0.N) (X : FVec Ideal S5x163840x128 .f32) (y : S1x8192x128.Idx) (k : S5x163840x128.Idx)
    (h0 : (k 0).val = win0_0.index t (0 : Fin 3) * 1 + (y 0).val)
    (h1 : (k 1).val = win0_0.index t (1 : Fin 3) * 8192 + (y 1).val)
    (h2 : (k 2).val = win0_0.index t (2 : Fin 3) * 128 + (y 2).val) :
    (((cfg0.win 0).blk t).view.read (Elt Ideal) X : Vec Ideal S1x8192x128 .f32) y = X k := by
  rw [View.read_apply]
  show X _ = X k
  refine congrArg X ?_
  funext a
  apply Fin.ext
  match a with
  | ⟨0, _⟩ => show win0_0.index t (0 : Fin 3) * 1 + 1 * (y 0).val = (k 0).val; omega
  | ⟨1, _⟩ => show win0_0.index t (1 : Fin 3) * 8192 + 1 * (y 1).val = (k 1).val; omega
  | ⟨2, _⟩ => show win0_0.index t (2 : Fin 3) * 128 + 1 * (y 2).val = (k 2).val; omega

/-- An entry of window 1's block at point `t`, read off any array of the weights' shape, is that array's entry at the
    block's place. -/
theorem weights_block_read (t : Fin cfg0.N) (X : FVec Ideal S163840x128 .f32) (y : S8192x128.Idx) (k : S163840x128.Idx)
    (h0 : (k 0).val = win0_1.index t (0 : Fin 2) * 8192 + (y 0).val)
    (h1 : (k 1).val = win0_1.index t (1 : Fin 2) * 128 + (y 1).val) :
    (((cfg0.win 1).blk t).view.read (Elt Ideal) X : Vec Ideal S8192x128 .f32) y = X k := by
  rw [View.read_apply]
  show X _ = X k
  refine congrArg X ?_
  funext a
  apply Fin.ext
  match a with
  | ⟨0, _⟩ => show win0_1.index t (0 : Fin 2) * 8192 + 1 * (y 0).val = (k 0).val; omega
  | ⟨1, _⟩ => show win0_1.index t (1 : Fin 2) * 128 + 1 * (y 1).val = (k 1).val; omega

/-- An entry of the output window's block at point `t`, read off any array of the output's shape, is that array's entry
    at the block's place. -/
theorem output_block_read (t : Fin cfg0.N) (X : FVec Ideal S5x163840x128 .f32) (y : S1x8192x128.Idx) (k : S5x163840x128.Idx)
    (h0 : (k 0).val = win0_2.index t (0 : Fin 3) * 1 + (y 0).val)
    (h1 : (k 1).val = win0_2.index t (1 : Fin 3) * 8192 + (y 1).val)
    (h2 : (k 2).val = win0_2.index t (2 : Fin 3) * 128 + (y 2).val) :
    (((cfg0.win 2).blk t).view.read (Elt Ideal) X : Vec Ideal S1x8192x128 .f32) y = X k := by
  rw [View.read_apply]
  show X _ = X k
  refine congrArg X ?_
  funext a
  apply Fin.ext
  match a with
  | ⟨0, _⟩ => show win0_2.index t (0 : Fin 3) * 1 + 1 * (y 0).val = (k 0).val; omega
  | ⟨1, _⟩ => show win0_2.index t (1 : Fin 3) * 8192 + 1 * (y 1).val = (k 1).val; omega
  | ⟨2, _⟩ => show win0_2.index t (2 : Fin 3) * 128 + 1 * (y 2).val = (k 2).val; omega

/-- WHAT POINT `t` WRITES BACK is its block of the product array: under the block's entry (u, r, l) sits the array index
    k = (batch row, row-tile × 8192 + r, l); the gathered block holds the gathered array's entry at k, the weights block the
    weight at k's row and lane. -/
theorem flushed_eq (c : Dev nD) (t : Fin cfg0.N) :
    (dats m 0 c).flushed 2 t = ((cfg0.win 2).blk t).view.read (Elt Ideal) (prodArr m c) := by
  show (cfg0.win 2).cut (grid0.coords t) ((dats m 0 c).after 2 t) = _
  rw [after0_2]
  unfold out0_2
  rw [View.canon_unit_zero zero_off3]
  simp only [View.ld_unit_zero (S := S8192x128) zero_off2, View.ld_unit_zero (S := S1x8192x128) zero_off3]
  obtain ⟨e0, e1, e2, e3, e4, e5, e6, e7⟩ := index_facts t
  funext j
  refine (payload_apply (iblk m c 1 t) (iblk m c 0 t) j).trans ?_
  have hj0 : (j 0).val < 1 := (j 0).isLt
  have hj1 : (j 1).val < 8192 := (j 1).isLt
  have hj2 : (j 2).val < 128 := (j 2).isLt
  obtain ⟨k, hk0, hk1, hk2⟩ : ∃ k : S5x163840x128.Idx,
      (k 0).val = win0_2.index t (0 : Fin 3) * 1 + (j 0).val
      ∧ (k 1).val = win0_2.index t (1 : Fin 3) * 8192 + (j 1).val
      ∧ (k 2).val = win0_2.index t (2 : Fin 3) * 128 + (j 2).val :=
    ⟨ix3 ⟨win0_2.index t (0 : Fin 3) * 1 + (j 0).val, by omega⟩ ⟨win0_2.index t (1 : Fin 3) * 8192 + (j 1).val, by omega⟩
      ⟨win0_2.index t (2 : Fin 3) * 128 + (j 2).val, by omega⟩, rfl, rfl, rfl⟩
  have g0 : (k 0).val = win0_0.index t (0 : Fin 3) * 1 + (j 0).val := by rw [e0]; exact hk0
  have g1 : (k 1).val = win0_0.index t (1 : Fin 3) * 8192 + (j 1).val := by rw [e1]; exact hk1
  have g2 : (k 2).val = win0_0.index t (2 : Fin 3) * 128 + (j 2).val := by rw [e2]; exact hk2
  have v0 : (k 1).val = win0_1.index t (0 : Fin 2) * 8192 + (j 1).val := by rw [e3]; exact hk1
  have v1 : (k 2).val = win0_1.index t (1 : Fin 2) * 128 + (j 2).val := by
    have h := hk2
    rw [e5] at h
    rw [e4]; exact h
  rw [gathered_iblk m c t, weights_iblk m c t,
    gathered_block_read t (gArr m c) j k g0 g1 g2,
    weights_block_read t (vArr m c) (ix2 (j 1) (j 2)) (ix2 (k 1) (k 2)) v0 v1]
  exact (output_block_read t (prodArr m c) j k hk0 hk1 hk2).symm

/-- An index of the array is in point `t`'s block iff each coordinate is in the block's range on its axis. -/
theorem mem_block (t : Fin cfg0.N) (i : S5x163840x128.Idx) :
    i ∈ ((cfg0.win 2).blk t).view.set ↔ ∀ a : Fin 3, win0_2.index t a * S1x8192x128.size a ≤ (i a).val ∧ (i a).val < win0_2.index t a * S1x8192x128.size a + S1x8192x128.size a := by
  show i ∈ ((View.whole main_v7).slice (win0_2.rect t)).set ↔ _
  rw [View.set_slice_whole, Rect.mem_set_unit]
  exact Iff.rfl

/-- Every index (b, r, l) of the array is in some point's block: the point whose output block is batch row `b`,
    row-tile `r / 8192`. -/
theorem covered (i : S5x163840x128.Idx) :
    ∃ t : Fin cfg0.N, (cfg0.win 2).flush t = true ∧ i ∈ ((cfg0.win 2).blk t).view.set := by
  have hi0 : (i 0).val < 5 := (i 0).isLt
  have hi1 : (i 1).val < 163840 := (i 1).isLt
  have hi2 : (i 2).val < 128 := (i 2).isLt
  obtain ⟨t, ht⟩ := index_onto ⟨(i 0).val, hi0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 128 ≤ (i 2).val ∧ (i 2).val < win0_2.index t (2 : Fin 3) * 128 + 128; omega

/-- After the region, the weighted array holds at (b, r, l) the gathered activation at (b, r, l) times the weight at (r, l). -/
theorem region_value (c : Dev nD) :
    ((dats m 0 c).arrAt 2 cfg0.N : FVec Ideal S5x163840x128 .f32)
      = fun y => gArr m c y * vArr m c (ix2 (y 1) (y 2)) := by
  exact (dats m 0 c).arrAt_eq_of_cover 2 (prodArr m c) (fun t _ => flushed_eq m c t) covered

end Cert.KernelIdeal.Region

end
-- ==== Proof.Prefix.lean ====
/-
  The host lines before the kernel's one region, read at the exact extended reals.

  Before the region the host program flattens the sinogram [5, 1000, 513, 1] to [5, 513000]; pads each of the three
  sparse-matrix arrays (column words, weights, row words) with 971520 zeros, from 20000000 entries to
  20971520 = 20 × 8192 × 128; takes the flattened sinogram's columns at the padded column words — a negative word is
  first counted from the end of the axis (513000 is added to it), and the take then keeps what it gathered only where
  the wrapped word lies inside the axis, 0 ≤ w ≤ 512999, and puts a fill value elsewhere —; and reshapes the taken
  array [5, 20971520] to [5, 163840, 128] and the padded weights to [163840, 128]. These two reshaped arrays are what
  the region's windows read.

  This file states what each of those arrays holds when the region starts, entry by entry:
  * the flattened sinogram is the reshape of the argument (`sinoFlat_eq`);
  * a padded array is the argument below entry 20000000 and zero from there on (`colsPad_apply`, `valsPad_apply`,
    `rowsPad_apply`);
  * weight (r, l) of the reshaped weights is padded weight 128 r + l (`weights_apply`);
  * row k of the column of start indices is padded column word k, wrapped (`colsWrapped_apply`);
  * when every padded column word passes the range test the fill is never chosen, and entry (b, r, l) of the
    reshaped take is the gather of the flattened sinogram at the wrapped words, read at (b, 128 r + l)
    (`gathered_apply`).

  Each array's contents are first written as one term — the composition of the host operations that lead to it —
  and that term is then read at an index: a pad inside or outside its operand, a reshape through the row-major
  position, a broadcast through the coordinates it copies, the elementwise operations pointwise. The range test is a
  reduce-and over the unit axis of the column [20971520, 1]; under the hypothesis every bit it folds is 1, so it is 1.
-/
import proofs.«426425_j15951508538156_3_alg».proof.Proof.Gen.KernelIdeal.Frame
import proofs.«426425_j15951508538156_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Prefix

open Cert.KernelIdeal Cert.KernelIdeal.Gen Cert.Spec Idealize.ShloMosaic Idealize.ShloMosaic.TcCoe Idealize.ShloMosaic.ValueIdx Idealize.SL.Sem
open Idealize.ShloMosaic.StableHlo

variable (m : (ℓ : Loc nD τ sig) → Buf (Elt Ideal) ℓ)

/-- The four argument arrays as launched. -/
abbrev sinoArg (c : Dev nD) : FVec Ideal S5x1000x513x1 .f32 := m ((c : Thread nD τ).loc main_arg0)
abbrev valsArg (c : Dev nD) : FVec Ideal S20000000 .f32 := m ((c : Thread nD τ).loc main_arg1)
abbrev rowsArg (c : Dev nD) : IVec S20000000 32 := m ((c : Thread nD τ).loc main_arg2)
abbrev colsArg (c : Dev nD) : IVec S20000000 32 := m ((c : Thread nD τ).loc main_arg3)

/-- What the host lines before the region have written when it starts: the flattened sinogram, and the three
    sparse-matrix arrays padded with zeros to 20971520 entries. -/
abbrev sinoFlat (c : Dev nD) : FVec Ideal S5x513000 .f32 := V m c main_v0
abbrev colsPad (c : Dev nD) : IVec S20971520 32 := V m c main_v1
abbrev valsPad (c : Dev nD) : FVec Ideal S20971520 .f32 := V m c main_v2
abbrev rowsPad (c : Dev nD) : IVec S20971520 32 := V m c main_v3

/-! ## The arrays the host lines write, as terms over the arguments -/

/-- The flattened sinogram is the reshape of the argument. -/
theorem sinoFlat_eq (c : Dev nD) :
    sinoFlat m c = shapeCast S5x513000 (sinoArg m c) shapeCasts_S5x1000x513x1_S5x513000 := by
  dsimp only [sinoFlat, sinoArg, Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The padded column words are the host pad of the argument by the zero word. -/
theorem colsPad_eq (c : Dev nD) :
    colsPad m c = pad S20971520 ![0] ![971520] ![0] (colsArg m c) (constantI S_ 32 0#32)
      pads_S20000000_S20971520_09715200 h_S_ := by
  dsimp only [colsPad, colsArg, Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The padded weights are the host pad of the argument by the float zero. -/
theorem valsPad_eq (c : Dev nD) :
    valsPad m c = pad S20971520 ![0] ![971520] ![0] (valsArg m c) (constant (F := Ideal) S_ .f32 0x00000000#32)
      pads_S20000000_S20971520_09715200 h_S_ := by
  dsimp only [valsPad, valsArg, Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The padded row words are the host pad of the argument by the zero word. -/
theorem rowsPad_eq (c : Dev nD) :
    rowsPad m c = pad S20971520 ![0] ![971520] ![0] (rowsArg m c) (constantI S_ 32 0#32)
      pads_S20000000_S20971520_09715200 h_S_ := by
  dsimp only [rowsPad, rowsArg, Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- A pad of a vector of 20000000 entries to 20971520, read at entry `k`: the operand's entry below 20000000, the
    padding value from there on. -/
theorem pad_tail_apply {α : Type} (x : S20000000.Idx → α) (v : S_.Idx → α) (k : Fin 20971520) :
    pad S20971520 ![0] ![971520] ![0] x v pads_S20000000_S20971520_09715200 h_S_ (ix1 k)
      = if h : k.val < 20000000 then x (ix1 ⟨k.val, h⟩) else v (Shape.Idx.first h_S_) := by
  by_cases h : k.val < 20000000
  · rw [dif_pos h]
    exact pad_apply_of_inside _ _ _ x v pads_S20000000_S20971520_09715200 h_S_ (ix1 k) (ix1 ⟨k.val, h⟩)
      (fun a => match a with
        | ⟨0, _⟩ => by show k.val = 0 + k.val * (0 + 1); omega)
  · rw [dif_neg h]
    refine pad_apply_of_not_inside _ _ _ x v pads_S20000000_S20971520_09715200 h_S_ (ix1 k) (0 : Fin 1) ?_
    intro hin
    have h2 : (k.val - 0) / (0 + 1) < 20000000 := hin.2.2
    omega

/-- The padded column words: the argument's below 20000000, the zero word from there on. -/
theorem colsPad_apply (c : Dev nD) (k : Fin 20971520) :
    colsPad m c (ix1 k) = if h : k.val < 20000000 then colsArg m c (ix1 ⟨k.val, h⟩) else 0#32 := by
  rw [colsPad_eq, pad_tail_apply]
  rfl

/-- The padded weights: the argument's below 20000000, zero from there on. -/
theorem valsPad_apply (c : Dev nD) (k : Fin 20971520) :
    valsPad m c (ix1 k) = if h : k.val < 20000000 then valsArg m c (ix1 ⟨k.val, h⟩) else (0 : EReal) := by
  rw [valsPad_eq, pad_tail_apply, constant_apply, Ideal.ofBits_zero_f32]

/-- The padded row words: the argument's below 20000000, the zero word from there on. -/
theorem rowsPad_apply (c : Dev nD) (k : Fin 20971520) :
    rowsPad m c (ix1 k) = if h : k.val < 20000000 then rowsArg m c (ix1 ⟨k.val, h⟩) else 0#32 := by
  rw [rowsPad_eq, pad_tail_apply]
  rfl

/-! ## The weights as the region finds them -/

/-- The weights the region reads are the reshape of the padded weights. -/
theorem weights_eq (c : Dev nD) :
    (V m c main_v6 : FVec Ideal S163840x128 .f32)
      = shapeCast S163840x128 (valsPad m c) shapeCasts_S20971520_S163840x128 := by
  rw [valsPad_eq]
  dsimp only [valsArg, Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- The weights as the region finds them, [163840 × 128]: entry (r, l) is padded weight 128 r + l. -/
theorem weights_apply (c : Dev nD) (r : Fin 163840) (l : Fin 128) :
    (V m c main_v6 : FVec Ideal S163840x128 .f32) (ix2 r l)
      = valsPad m c (ix1 ⟨r.val * 128 + l.val, by have := r.isLt; have := l.isLt; omega⟩) := by
  rw [weights_eq]
  exact shapeCast_apply _ shapeCasts_S20971520_S163840x128 (ix2 r l) (ix1 ⟨r.val * 128 + l.val, _⟩)
    (by rw [Shape.rowMajor_val_one, Shape.rowMajor_val_two]; rfl)

/-! ## The wrapped column words -/

/-- The wrapped column words as a column [20971520 × 1]: what the gather takes as its start indices. -/
abbrev colsWrapped (c : Dev nD) : IVec S20971520x1 32 := V m c main_call3_v5

/-- The column is the broadcast of the padded words, each with 513000 added where it is negative. -/
theorem colsWrapped_eq (c : Dev nD) :
    colsWrapped m c = broadcastInDim S20971520x1 ![0] bcast_S20971520_S20971520x1_0
      (select (cmpi .slt (colsPad m c) (broadcastInDim S20971520 ![] bcast_S_S20971520 (constantI S_ 32 0#32)))
        (addi (colsPad m c) (broadcastInDim S20971520 ![] bcast_S_S20971520 (constantI S_ 32 513000#32)))
        (colsPad m c)) := by
  rw [colsPad_eq]
  dsimp only [colsWrapped, colsArg, Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl

/-- Row `k` of that column is padded column word `k`, wrapped. -/
theorem colsWrapped_apply (c : Dev nD) (k : Fin 20971520) :
    colsWrapped m c (ix2 k (0 : Fin 1)) = wrapCol (colsPad m c (ix1 k)) := by
  rw [colsWrapped_eq]
  refine (broadcastInDim_apply _ bcast_S20971520_S20971520x1_0 _ (ix2 k (0 : Fin 1)) (ix1 k) (fun a => match a with
    | ⟨0, _⟩ => by show k.val = if (20971520 : Nat) = 1 then 0 else k.val; rw [if_neg (by decide)])).trans ?_
  rfl

/-! ## The gathered activations -/

/-- The take's range test on a column of wrapped words, one bit per row: not below 0 and not above 512999. -/
abbrev rangeBits (w : IVec S20971520x1 32) : IVec S20971520x1 1 :=
  andi (cmpi .sge w (broadcastInDim S20971520x1 ![] bcast_S_S20971520x1 (constantI S_ 32 0#32)))
    (cmpi .sle w (broadcastInDim S20971520x1 ![0, 1] bcast_S1x1_S20971520x1_0_1
      (broadcastInDim S1x1 ![1] bcast_S1_S1x1_1 (constantI S1 32 512999#32))))

/-- A filling take with its two searching operations left open: `red` folds the range bits of each row into one bit,
    `gath` reads the operand at the column; the result keeps the gathered entry where the row's bit is set and has the
    fill value elsewhere. -/
abbrev takeFillWith (red : IVec S20971520x1 1 → IVec S_ 1 → IVec S20971520 1)
    (gath : FVec Ideal S5x513000 .f32 → IVec S20971520x1 32 → FVec Ideal S5x20971520 .f32)
    (x : FVec Ideal S5x513000 .f32) (w : IVec S20971520x1 32) : FVec Ideal S5x20971520 .f32 :=
  select
    (broadcastInDim S5x20971520 ![1] bcast_S20971520_S5x20971520_1 (red (rangeBits w) (constantI S_ 1 1#1)))
    (gath x w)
    (broadcastInDim S5x20971520 ![] bcast_S_S5x20971520 (constant (F := Ideal) S_ .f32 0x7FC00000#32))

/-- The reduce-and of a column's range bits over its unit axis. -/
abbrev rowAnd (x : IVec S20971520x1 1) (v : IVec S_ 1) : IVec S20971520 1 :=
  Host.reduce IntOp.andi x v reducesTo_S20971520x1_S20971520_d1 h_S_

/-- The gather of the flattened sinogram's columns at a column of start indices. -/
abbrev colGather (x : FVec Ideal S5x513000 .f32) (i : IVec S20971520x1 32) : FVec Ideal S5x20971520 .f32 :=
  Host.gather gather_S5x513000_S20971520x1_S5x20971520_0_1_n_n_1_1_51 x i

/-- The filling take of the flattened sinogram `x` at the column `w`. -/
abbrev takeFill (x : FVec Ideal S5x513000 .f32) (w : IVec S20971520x1 32) : FVec Ideal S5x20971520 .f32 :=
  takeFillWith rowAnd colGather x w

/-! ### The take in two halves

The take's 23 operations read the wrapped column three times (the two range tests and the gather). They are cut here
after the line that writes the column: the first eight lines make it from the padded column words, the other fifteen
read it. What the second half and the two reshapes write is stated from ANY buffer contents `W` before them, so that
the column stays one name, and for ANY two operations in the places of the reduce-and and the gather: which buffer each
line reads and writes does not depend on what those two compute. -/

/-- The take's first eight lines: the wrap of the padded column words, as a column. -/
abbrev takeOpsA : List (HloOp τ sig (Elt Ideal)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S20971520, .i32⟩) (broadcastInDim S20971520 ![] bcast_S_S20971520),
    StableHlo.TRef.binary (.of main_v1 : StableHlo.TRef sig ⟨S20971520, .i32⟩) (.of main_call3_v0 : StableHlo.TRef sig ⟨S20971520, .i32⟩) (.of main_call3_v1 : StableHlo.TRef sig ⟨S20971520, .i1⟩) (cmpi .slt),
    StableHlo.TRef.nullary (.of main_call3_c_0 : StableHlo.TRef sig ⟨S_, .i32⟩) (constantI S_ 32 513000#32),
    StableHlo.TRef.unary (.of main_call3_c_0 : StableHlo.TRef sig ⟨S_, .i32⟩) (.of main_call3_v2 : StableHlo.TRef sig ⟨S20971520, .i32⟩) (broadcastInDim S20971520 ![] bcast_S_S20971520),
    StableHlo.TRef.binary (.of main_v1 : StableHlo.TRef sig ⟨S20971520, .i32⟩) (.of main_call3_v2 : StableHlo.TRef sig ⟨S20971520, .i32⟩) (.of main_call3_v3 : StableHlo.TRef sig ⟨S20971520, .i32⟩) addi,
    StableHlo.TRef.ternary (.of main_call3_v1 : StableHlo.TRef sig ⟨S20971520, .i1⟩) (.of main_call3_v3 : StableHlo.TRef sig ⟨S20971520, .i32⟩) (.of main_v1 : StableHlo.TRef sig ⟨S20971520, .i32⟩) (.of main_call3_v4 : StableHlo.TRef sig ⟨S20971520, .i32⟩) select,
    StableHlo.TRef.unary main_call3_call0.v0 (.of main_call3_v5 : StableHlo.TRef sig ⟨S20971520x1, .i32⟩) (broadcastInDim S20971520x1 ![0] bcast_S20971520_S20971520x1_0) ]

/-- The take's other fifteen lines: the range test of the column, the gather at it, and the choice between the two. -/
abbrev takeOpsBWith (red : IVec S20971520x1 1 → IVec S_ 1 → IVec S20971520 1)
    (gath : FVec Ideal S5x513000 .f32 → IVec S20971520x1 32 → FVec Ideal S5x20971520 .f32) : List (HloOp τ sig (Elt Ideal)) :=
  [ StableHlo.TRef.nullary (.of main_call3_c_1 : StableHlo.TRef sig ⟨S1, .i32⟩) (constantI S1 32 512999#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S20971520x1, .i32⟩) (broadcastInDim S20971520x1 ![] bcast_S_S20971520x1),
    StableHlo.TRef.binary (.of main_call3_v5 : StableHlo.TRef sig ⟨S20971520x1, .i32⟩) (.of main_call3_v6 : StableHlo.TRef sig ⟨S20971520x1, .i32⟩) (.of main_call3_v7 : StableHlo.TRef sig ⟨S20971520x1, .i1⟩) (cmpi .sge),
    StableHlo.TRef.unary (.of main_call3_c_1 : StableHlo.TRef sig ⟨S1, .i32⟩) (.of main_call3_v8 : StableHlo.TRef sig ⟨S1x1, .i32⟩) (broadcastInDim S1x1 ![1] bcast_S1_S1x1_1),
    StableHlo.TRef.unary (.of main_call3_v8 : StableHlo.TRef sig ⟨S1x1, .i32⟩) (.of main_call3_v9 : StableHlo.TRef sig ⟨S20971520x1, .i32⟩) (broadcastInDim S20971520x1 ![0, 1] bcast_S1x1_S20971520x1_0_1),
    StableHlo.TRef.binary (.of main_call3_v5 : StableHlo.TRef sig ⟨S20971520x1, .i32⟩) (.of main_call3_v9 : StableHlo.TRef sig ⟨S20971520x1, .i32⟩) (.of main_call3_v10 : StableHlo.TRef sig ⟨S20971520x1, .i1⟩) (cmpi .sle),
    StableHlo.TRef.binary (.of main_call3_v7 : StableHlo.TRef sig ⟨S20971520x1, .i1⟩) (.of main_call3_v10 : StableHlo.TRef sig ⟨S20971520x1, .i1⟩) (.of main_call3_v11 : StableHlo.TRef sig ⟨S20971520x1, .i1⟩) andi,
    StableHlo.TRef.nullary (.of main_call3_c_3 : StableHlo.TRef sig ⟨S_, .i1⟩) (constantI S_ 1 1#1),
    StableHlo.TRef.binary (.of main_call3_v11 : StableHlo.TRef sig ⟨S20971520x1, .i1⟩) (.of main_call3_c_3 : StableHlo.TRef sig ⟨S_, .i1⟩) (.of main_call3_v12 : StableHlo.TRef sig ⟨S20971520, .i1⟩) red,
    StableHlo.TRef.binary (.of main_v0 : StableHlo.TRef sig ⟨S5x513000, .f32⟩) (.of main_call3_v5 : StableHlo.TRef sig ⟨S20971520x1, .i32⟩) (.of main_call3_v13 : StableHlo.TRef sig ⟨S5x20971520, .f32⟩) gath,
    StableHlo.TRef.unary (.of main_call3_v12 : StableHlo.TRef sig ⟨S20971520, .i1⟩) (.of main_call3_v14 : StableHlo.TRef sig ⟨S5x20971520, .i1⟩) (broadcastInDim S5x20971520 ![1] bcast_S20971520_S5x20971520_1),
    StableHlo.TRef.nullary (.of main_call3_cst : StableHlo.TRef sig ⟨S_, .f32⟩) (constant (F := Ideal) S_ .f32 0x7FC00000#32),
    StableHlo.TRef.unary (.of main_call3_cst : StableHlo.TRef sig ⟨S_, .f32⟩) (.of main_call3_v15 : StableHlo.TRef sig ⟨S5x20971520, .f32⟩) (broadcastInDim S5x20971520 ![] bcast_S_S5x20971520),
    StableHlo.TRef.ternary (.of main_call3_v14 : StableHlo.TRef sig ⟨S5x20971520, .i1⟩) (.of main_call3_v13 : StableHlo.TRef sig ⟨S5x20971520, .f32⟩) (.of main_call3_v15 : StableHlo.TRef sig ⟨S5x20971520, .f32⟩) (.of main_v4 : StableHlo.TRef sig ⟨S5x20971520, .f32⟩) select ]

/-- The take's other fifteen lines as printed. -/
abbrev takeOpsB : List (HloOp τ sig (Elt Ideal)) := takeOpsBWith rowAnd colGather

/-- The two halves are the take's lines. -/
theorem take_split : (hostOps0_6 : List (HloOp τ sig (Elt Ideal))) = takeOpsA ++ takeOpsB := rfl

section Stages
variable (red : IVec S20971520x1 1 → IVec S_ 1 → IVec S20971520 1)
  (gath : FVec Ideal S5x513000 .f32 → IVec S20971520x1 32 → FVec Ideal S5x20971520 .f32)
  (W : Valuation τ sig (Elt Ideal))

/-- The take's second half and the reshapes leave the flattened sinogram as it was. -/
theorem stage_sino :
    (after (hostOps0_7 (F := Ideal)) (after (takeOpsBWith red gath) W) (Proc.devRef .tc main_v0) : FVec Ideal S5x513000 .f32)
      = W (Proc.devRef .tc main_v0) := by
  simp only [takeOpsBWith, Gen.hostOps0_7]
  after_results

/-- They leave the wrapped column as it was. -/
theorem stage_cols :
    (after (hostOps0_7 (F := Ideal)) (after (takeOpsBWith red gath) W) (Proc.devRef .tc main_call3_v5) : IVec S20971520x1 32)
      = W (Proc.devRef .tc main_call3_v5) := by
  simp only [takeOpsBWith, Gen.hostOps0_7]
  after_results

/-- The take's result, from the flattened sinogram and the wrapped column before its second half. -/
theorem stage_taken :
    (after (hostOps0_7 (F := Ideal)) (after (takeOpsBWith red gath) W) (Proc.devRef .tc main_v4) : FVec Ideal S5x20971520 .f32)
      = takeFillWith red gath (W (Proc.devRef .tc main_v0)) (W (Proc.devRef .tc main_call3_v5)) := by
  simp only [takeOpsBWith, Gen.hostOps0_7]
  after_results
  rfl

/-- The gathered activations as reshaped for the region, likewise. -/
theorem stage_gathered :
    (after (hostOps0_7 (F := Ideal)) (after (takeOpsBWith red gath) W) (Proc.devRef .tc main_v5) : FVec Ideal S5x163840x128 .f32)
      = shapeCast S5x163840x128 (takeFillWith red gath (W (Proc.devRef .tc main_v0)) (W (Proc.devRef .tc main_call3_v5)))
          shapeCasts_S5x20971520_S5x163840x128 := by
  simp only [takeOpsBWith, Gen.hostOps0_7]
  after_results
  rfl

end Stages

/-- The buffers' contents after the host lines up to the take's first half. -/
def preTake (c : Dev nD) : Valuation τ sig (Elt Ideal) :=
  after (List.flatten [hostOps0, hostOps0_1, hostOps0_2, hostOps0_3, hostOps0_4, hostOps0_5, takeOpsA]) (fun b => m (c, b))

/-- The contents the region finds are those, continued by the take's second half and the two reshapes. -/
theorem V0_eq (c : Dev nD) : V0 m c = after hostOps0_7 (after takeOpsB (preTake m c)) := by
  dsimp only [Gen.V0, preTake]
  rw [take_split]
  simp only [List.flatten_cons, List.flatten_nil, List.append_nil, StableHlo.after_append]

/-- The gathered activations the region reads are the reshape of the filling take of the flattened sinogram at the
    wrapped column. -/
theorem gathered_eq (c : Dev nD) :
    (V m c main_v5 : FVec Ideal S5x163840x128 .f32)
      = shapeCast S5x163840x128 (takeFill (sinoFlat m c) (colsWrapped m c)) shapeCasts_S5x20971520_S5x163840x128 := by
  have e := stage_gathered rowAnd colGather (preTake m c)
  have e5 := stage_cols rowAnd colGather (preTake m c)
  have e0 := stage_sino rowAnd colGather (preTake m c)
  rw [← V0_eq m c] at e e5 e0
  dsimp only [sinoFlat, colsWrapped, Gen.V]
  rw [e5, e0]
  exact e

/-- A left fold by `and` over one-bit words that starts at 1 and meets only 1s is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_one f l _ ?_ (fun n hn => hl n (List.mem_cons_of_mem _ hn))
    rw [hi, hl a List.mem_cons_self]
    rfl

/-- When every padded column word passes the range test, every range bit of the wrapped column is set. -/
theorem rangeBits_one (c : Dev nD) (hok : ∀ k : Fin 20971520, ColOk (colsPad m c (ix1 k))) (i : S20971520x1.Idx) :
    rangeBits (colsWrapped m c) i = 1#1 := by
  obtain ⟨k, t, rfl⟩ : ∃ (k : Fin 20971520) (t : Fin 1), i = ix2 k t := ⟨i 0, i 1, eq_ix2 i⟩
  have ht : t = 0 := Subsingleton.elim _ _
  subst ht
  show IntOp.andi (IntOp.cmpi .sge (colsWrapped m c (ix2 k (0 : Fin 1))) 0#32)
      (IntOp.cmpi .sle (colsWrapped m c (ix2 k (0 : Fin 1))) 512999#32) = 1#1
  rw [colsWrapped_apply, (hok k).1, (hok k).2]
  rfl

/-- The gathered activations as the region finds them, [5 × 163840 × 128], when every padded column word passes the
    take's range test: the fill is never chosen, and entry (b, r, l) is the gather of the flattened sinogram at the
    wrapped column words, read at (b, 128 r + l). -/
theorem gathered_apply (c : Dev nD) (hok : ∀ k : Fin 20971520, ColOk (colsPad m c (ix1 k)))
    (b : Fin 5) (r : Fin 163840) (l : Fin 128) :
    (V m c main_v5 : FVec Ideal S5x163840x128 .f32) (ix3 b r l)
      = Host.gather gather_S5x513000_S20971520x1_S5x20971520_0_1_n_n_1_1_51 (sinoFlat m c) (colsWrapped m c)
          (ix2 b ⟨r.val * 128 + l.val, by have := r.isLt; have := l.isLt; omega⟩) := by
  have hq : r.val * 128 + l.val < 20971520 := by have := r.isLt; have := l.isLt; omega
  rw [gathered_eq]
  refine (shapeCast_apply _ shapeCasts_S5x20971520_S5x163840x128 (ix3 b r l) (ix2 b ⟨r.val * 128 + l.val, hq⟩)
    (by rw [Shape.rowMajor_val_two, Shape.rowMajor_val_three]
        show b.val * 20971520 + (r.val * 128 + l.val) = (b.val * 163840 + r.val) * 128 + l.val
        omega)).trans ?_
  have hm : broadcastInDim S5x20971520 ![1] bcast_S20971520_S5x20971520_1
      (rowAnd (rangeBits (colsWrapped m c)) (constantI S_ 1 1#1)) (ix2 b ⟨r.val * 128 + l.val, hq⟩) = 1#1 := by
    refine (broadcastInDim_apply _ bcast_S20971520_S5x20971520_1 _ (ix2 b ⟨r.val * 128 + l.val, hq⟩)
      (ix1 ⟨r.val * 128 + l.val, hq⟩) (fun a => match a with
        | ⟨0, _⟩ => by
          show r.val * 128 + l.val = if (20971520 : Nat) = 1 then 0 else r.val * 128 + l.val
          rw [if_neg (by decide)])).trans ?_
    refine (Host.reduce_eq_foldl IntOp.andi _ _ reducesTo_S20971520x1_S20971520_d1 h_S_ _).trans ?_
    exact foldl_andi_one _ _ _ rfl (fun n _ => rangeBits_one m c hok n)
  dsimp only [takeFill, takeFillWith]
  rw [select_apply, hm, select_one]

end Cert.KernelIdeal.Prefix

end
-- ==== Proof.Tail.lean ====
/-
  The host operations after the region, as one closed term.

  After the region has written the weighted array W : [5, 163840, 128], the host flattens it to [5, 20971520], appends
  the padded weights as a sixth row, and transposes to [20971520, 6], so that entry i carries its six values: the five
  weighted samples W(b, i / 128, i % 128), b < 5, and the padded weight of i. ONE segment sum over the padded row words
  adds entry i's six values into row (row word i) of a zero array [131044, 6]. The first five columns, transposed back to
  [5, 131044], are the five back-projections; the sixth column is the sensitivity image. The result is each back-projection
  divided entrywise by the sensitivity image, reshaped to [5, 362, 362, 1].

  This file names the five stages (the updates, the segment sum, the back-projections, the sensitivity image, the closing
  lines), shows that the buffer the program returns holds the closing lines applied to the stages built from the region's
  output array, the padded weights and the padded rows, and reads each layout stage at one index: a back-projection and
  the sensitivity image as one column of the segment sum, an update as one entry of the weighted array or one padded
  weight, the start indices as the padded row words, the operand as zero.
-/
import proofs.«426425_j15951508538156_3_alg».proof.Proof.Gen.KernelIdeal.Frame
import proofs.«426425_j15951508538156_3_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

set_option maxRecDepth 16384

noncomputable section

namespace Cert.KernelIdeal.Tail

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- The scatter's updates, [20971520 × 6]: the weighted array flattened to five rows, the padded weights as a sixth
    row, transposed so that entry `i` carries its six values. -/
def updK (W : FVec Ideal S5x163840x128 .f32) (vp : FVec Ideal S20971520 .f32) : FVec Ideal S20971520x6 .f32 :=
  transpose S20971520x6 [1, 0]
    (concatenate S6x20971520 0
      [⟨S5x20971520, shapeCast S5x20971520 W shapeCasts_S5x163840x128_S5x20971520⟩,
       ⟨S1x20971520, broadcastInDim S1x20971520 ![1] bcast_S20971520_S1x20971520_1 vp⟩]
      concatenates_S5x20971520_S1x20971520_S6x20971520_d0)
    transposes_S6x20971520_S20971520x6_1_0

/-- The one segment sum, [131044 × 6]: zeros plus, at segment `p`, the updates whose padded row word is `p`. -/
def scatK (W : FVec Ideal S5x163840x128 .f32) (vp : FVec Ideal S20971520 .f32) (rp : IVec S20971520 32) : FVec Ideal S131044x6 .f32 :=
  Host.scatterAdd scatter_S131044x6_S20971520x1_S20971520x6_1_0_0_1
    (broadcastInDim S131044x6 ![] bcast_S_S131044x6 (constant (F := Ideal) S_ .f32 0x00000000#32))
    (broadcastInDim S20971520x1 ![0] bcast_S20971520_S20971520x1_0 rp)
    (updK W vp)

/-- The five back-projections, [5 × 131044]: the first five columns of the segment sum, transposed. -/
def recK (W : FVec Ideal S5x163840x128 .f32) (vp : FVec Ideal S20971520 .f32) (rp : IVec S20971520 32) : FVec Ideal S5x131044 .f32 :=
  transpose S5x131044 [1, 0] (extractStridedSlice S131044x5 ![0, 0] (scatK W vp rp) slices_S131044x6_S131044x5_0_0)
    transposes_S131044x5_S5x131044_1_0

/-- The sensitivity image, [131044]: the sixth column of the segment sum. -/
def sensK (W : FVec Ideal S5x163840x128 .f32) (vp : FVec Ideal S20971520 .f32) (rp : IVec S20971520 32) : FVec Ideal S131044 .f32 :=
  shapeCast S131044 (extractStridedSlice S131044x1 ![0, 5] (scatK W vp rp) slices_S131044x6_S131044x1_0_5) shapeCasts_S131044x1_S131044

/-- The closing lines: each back-projection divided entrywise by the sensitivity image, reshaped to [5, 362, 362, 1]. -/
def finishK (rec : FVec Ideal S5x131044 .f32) (sens : FVec Ideal S131044 .f32) : FVec Ideal S5x362x362x1 .f32 :=
  shapeCast S5x362x362x1
    (Host.divf rec (broadcastInDim S5x131044 ![0, 1] bcast_S1x131044_S5x131044_0_1
      (broadcastInDim S1x131044 ![1] bcast_S131044_S1x131044_1 sens)))
    shapeCasts_S5x131044_S5x362x362x1

set_option maxHeartbeats 2000000 in
/-- What the host lines after the region leave in the result buffer: the closing lines applied to the back-projections
    and the sensitivity image made from the weighted array the region wrote, the padded weights and the padded rows. -/
theorem tail_eq (c : Dev nD) :
    (Pipeline.afterTail₀ cfgs (dats m) 0 (V0 m) [hostOps1] c main_v22 : FVec Ideal S5x362x362x1 .f32)
      = finishK (recK ((dats m 0 c).arrAt 2 cfg0.N) (V m c main_v2) (V m c main_v3))
          (sensK ((dats m 0 c).arrAt 2 cfg0.N) (V m c main_v2) (V m c main_v3)) := by
  unfold Pipeline.afterTail₀
  show StableHlo.after hostOps1 _ (Proc.devRef .tc main_v22) = _
  after_results
  -- the three buffers the lines read: the region's output array, and two buffers the region does not touch
  have h7 : Pipeline.withArrays (cfgs 0).spec c (V0 m c) (fun w => (dats m 0 c).arrAt w (cfgs 0).N) (Proc.devRef .tc main_v7)
      = (dats m 0 c).arrAt 2 cfg0.N := Pipeline.withArrays_arr spec0 launch0.win.arr_inj c _ _ 2
  have h2 : Pipeline.withArrays (cfgs 0).spec c (V0 m c) (fun w => (dats m 0 c).arrAt w (cfgs 0).N) (Proc.devRef .tc main_v2)
      = V m c main_v2 :=
    Pipeline.withArrays_of_ne _ c (V0 m c) _ main_v2 (by exact (by decide : ∀ w, Pipeline.arrRef spec0 w ≠ main_v2))
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  rw [h7, h2, h3]
  rfl

/-- Back-projection `b` at pixel `p` is column `b` of the segment sum at segment `p`. -/
theorem recK_apply (W : FVec Ideal S5x163840x128 .f32) (vp : FVec Ideal S20971520 .f32) (rp : IVec S20971520 32)
    (b : Fin 5) (p : Fin 131044) :
    recK W vp rp (ix2 b p) = scatK W vp rp (ix2 p ⟨b.val, by have := b.isLt; omega⟩) := by
  unfold recK
  generalize scatK W vp rp = y
  refine (transpose_apply [1, 0] _ transposes_S131044x5_S5x131044_1_0 (ix2 b p) (ix2 p b) (fun a => match a with
    | ⟨0, _⟩ => rfl
    | ⟨1, _⟩ => rfl)).trans ?_
  exact extractStridedSlice_apply ![0, 0] y slices_S131044x6_S131044x5_0_0 (ix2 p b)
    (ix2 p ⟨b.val, by have := b.isLt; omega⟩) (fun a => match a with
    | ⟨0, _⟩ => by show p.val = 0 + p.val; omega
    | ⟨1, _⟩ => by show b.val = 0 + b.val; omega)

/-- The sensitivity image at pixel `p` is column 5 of the segment sum at segment `p`. -/
theorem sensK_apply (W : FVec Ideal S5x163840x128 .f32) (vp : FVec Ideal S20971520 .f32) (rp : IVec S20971520 32)
    (p : Fin 131044) :
    sensK W vp rp (ix1 p) = scatK W vp rp (ix2 p ⟨5, by decide⟩) := by
  unfold sensK
  generalize scatK W vp rp = y
  refine (shapeCast_apply _ shapeCasts_S131044x1_S131044 (ix1 p) (ix2 p (0 : Fin 1)) (by
    rewrite [Shape.rowMajor_val_two, Shape.rowMajor_val_one]
    show p.val * 1 + 0 = p.val
    omega)).trans ?_
  exact extractStridedSlice_apply ![0, 5] y slices_S131044x6_S131044x1_0_5 (ix2 p (0 : Fin 1))
    (ix2 p ⟨5, by decide⟩) (fun a => match a with
    | ⟨0, _⟩ => by show p.val = 0 + p.val; omega
    | ⟨1, _⟩ => by show 5 = 5 + 0; rfl)

/-- Update `i`, column `b < 5`: the weighted array at (b, i / 128, i % 128). -/
theorem updK_apply_lt (W : FVec Ideal S5x163840x128 .f32) (vp : FVec Ideal S20971520 .f32) (i : Fin 20971520) (b : Fin 5) :
    updK W vp (ix2 i ⟨b.val, by have := b.isLt; omega⟩)
      = W (ix3 b ⟨i.val / 128, by have := i.isLt; omega⟩ ⟨i.val % 128, Nat.mod_lt _ (by decide)⟩) := by
  unfold updK
  refine (transpose_apply [1, 0] _ transposes_S6x20971520_S20971520x6_1_0 (ix2 i ⟨b.val, by have := b.isLt; omega⟩)
    (ix2 (⟨b.val, by have := b.isLt; omega⟩ : Fin 6) i) (fun a => match a with
    | ⟨0, _⟩ => rfl
    | ⟨1, _⟩ => rfl)).trans ?_
  refine (concatenate_pair_apply_left (t := S6x20971520) (s₁ := S5x20971520) (s₂ := S1x20971520) (0 : Fin 2) _ _ concatenates_S5x20971520_S1x20971520_S6x20971520_d0
    (ix2 (⟨b.val, by have := b.isLt; omega⟩ : Fin 6) i) rfl (ix2 b i) (fun a => match a with
    | ⟨0, _⟩ => rfl
    | ⟨1, _⟩ => rfl)).trans ?_
  exact shapeCast_apply W shapeCasts_S5x163840x128_S5x20971520 (ix2 b i)
    (ix3 b ⟨i.val / 128, by have := i.isLt; omega⟩ ⟨i.val % 128, Nat.mod_lt _ (by decide)⟩) (by
    rewrite [Shape.rowMajor_val_three, Shape.rowMajor_val_two]
    show (b.val * 163840 + i.val / 128) * 128 + i.val % 128 = b.val * 20971520 + i.val
    omega)

/-- Update `i`, column 5: padded weight `i`. -/
theorem updK_apply_last (W : FVec Ideal S5x163840x128 .f32) (vp : FVec Ideal S20971520 .f32) (i : Fin 20971520) :
    updK W vp (ix2 i ⟨5, by decide⟩) = vp (ix1 i) := by
  unfold updK
  refine (transpose_apply [1, 0] _ transposes_S6x20971520_S20971520x6_1_0 (ix2 i ⟨5, by decide⟩)
    (ix2 (⟨5, by decide⟩ : Fin 6) i) (fun a => match a with
    | ⟨0, _⟩ => rfl
    | ⟨1, _⟩ => rfl)).trans ?_
  refine (concatenate_pair_apply_right (t := S6x20971520) (s₁ := S5x20971520) (s₂ := S1x20971520) (0 : Fin 2) _ _ concatenates_S5x20971520_S1x20971520_S6x20971520_d0
    (ix2 (⟨5, by decide⟩ : Fin 6) i) rfl rfl (ix2 (0 : Fin 1) i) (fun a => match a with
    | ⟨0, _⟩ => fun hne => absurd rfl hne
    | ⟨1, _⟩ => fun _ => rfl) rfl).trans ?_
  exact broadcastInDim_apply _ bcast_S20971520_S1x20971520_1 vp (ix2 (0 : Fin 1) i) (ix1 i) (fun a => match a with
    | ⟨0, _⟩ => by show i.val = if (20971520 : Nat) = 1 then 0 else i.val; rw [if_neg (by decide)])

/-- The scatter's start indices: row `i` of the column is padded row word `i`. -/
theorem rowsCol_apply (rp : IVec S20971520 32) (i : Fin 20971520) :
    broadcastInDim S20971520x1 ![0] bcast_S20971520_S20971520x1_0 rp (ix2 i (0 : Fin 1)) = rp (ix1 i) := by
  exact broadcastInDim_apply _ bcast_S20971520_S20971520x1_0 rp (ix2 i (0 : Fin 1)) (ix1 i) (fun a => match a with
    | ⟨0, _⟩ => by show i.val = if (20971520 : Nat) = 1 then 0 else i.val; rw [if_neg (by decide)])

/-- The scatter's operand is zero everywhere. -/
theorem zerosK_apply (j : S131044x6.Idx) :
    broadcastInDim S131044x6 ![] bcast_S_S131044x6 (constant (F := Ideal) S_ .f32 0x00000000#32) j = (0 : EReal) := by
  refine (broadcastInDim_apply _ bcast_S_S131044x6 (constant (F := Ideal) S_ .f32 0x00000000#32) j ix0
    (fun a => a.elim0)).trans ?_
  rw [constant_apply]
  exact Ideal.ofBits_zero_f32

end Cert.KernelIdeal.Tail

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«426425_j15951508538156_3_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.Sums.lean ====
/-
  The two sums of a sparse back-projection, and a sum over a padded index set.

  The sparse matrix has 20000000 entries; entry `i` carries a weight, a row word (the pixel it adds to) and a column
  word (the sinogram sample it reads). Back-projection `b` at pixel `p` is the sum, over the entries whose row word
  is `p`, of the weight times row `b` of the flattened sinogram at the entry's column; the sensitivity image at `p`
  is the sum of the weights of those entries.

  A program that pads the entry arrays to a longer length with zero weights sums over more indices, but every added
  index contributes zero: a sum over `Fin N'`, filtered by a predicate, of terms that vanish from `N` on is the sum
  over `Fin N` of the same terms under the same predicate.
-/
import proofs.«426425_j15951508538156_3_alg».proof.Proof.Spec
import Idealize.ShloMosaic.PureOps.Ideal
import Idealize.ShloMosaic.Lib.ValueIdx

noncomputable section

namespace Cert.Spec

open Idealize.ShloMosaic Idealize.ShloMosaic.ValueIdx

/-- Back-projection `b` at pixel `p`: over the entries whose row word is `p`, weight times sinogram sample. -/
def recSum (sino2 : (⟨2, ![5, 513000]⟩ : Shape).Idx → EReal) (vals : (⟨1, ![20000000]⟩ : Shape).Idx → EReal)
    (rows cols : IVec ⟨1, ![20000000]⟩ 32) (b : Fin 5) (p : Fin 131044) : EReal :=
  ∑ i ∈ Finset.univ.filter (fun i : Fin 20000000 => (rows (ix1 i)).toInt = (p.val : Int)),
    vals (ix1 i) * sino2 (ix2 b (colAt (cols (ix1 i))))

/-- The sensitivity image at pixel `p`: the sum of the weights of the entries whose row word is `p`. -/
def sensSum (vals : (⟨1, ![20000000]⟩ : Shape).Idx → EReal) (rows : IVec ⟨1, ![20000000]⟩ 32) (p : Fin 131044) : EReal :=
  ∑ i ∈ Finset.univ.filter (fun i : Fin 20000000 => (rows (ix1 i)).toInt = (p.val : Int)), vals (ix1 i)

/-- A sum over `Fin N'` of terms that vanish from `N` on is the sum over `Fin N`. -/
theorem sum_castLE {M : Type*} [AddCommMonoid M] {N N' : Nat} (h : N ≤ N') (f : Fin N' → M)
    (hz : ∀ i : Fin N', N ≤ i.val → f i = 0) : ∑ i, f i = ∑ i : Fin N, f (Fin.castLE h i) := by
  have e : ∑ i : Fin N, f (Fin.castLE h i) = ∑ x ∈ Finset.univ.map (Fin.castLEEmb h), f x := by
    rw [Finset.sum_map]; rfl
  rw [e]
  symm
  refine Finset.sum_subset (Finset.subset_univ _) ?_
  intro x _ hx
  refine hz x ?_
  by_contra hlt
  exact hx (Finset.mem_map.2 ⟨⟨x.val, Nat.lt_of_not_le hlt⟩, Finset.mem_univ _, Fin.ext rfl⟩)

/-- The same under a predicate: the indices from `N` on contribute nothing whether or not they pass it. -/
theorem sum_filter_castLE {M : Type*} [AddCommMonoid M] {N N' : Nat} (h : N ≤ N') (P : Fin N' → Prop) [DecidablePred P]
    (g : Fin N' → M) (hz : ∀ i : Fin N', N ≤ i.val → g i = 0) :
    ∑ i ∈ Finset.univ.filter P, g i
      = ∑ i ∈ Finset.univ.filter (fun i : Fin N => P (Fin.castLE h i)), g (Fin.castLE h i) := by
  rw [Finset.sum_filter, Finset.sum_filter]
  exact sum_castLE h (fun i => if P i then g i else 0) (fun i hi => by simp only [hz i hi, ite_self])

/-- A segment's sum over padded entries: with row words and terms that agree with the unpadded ones below `N`
    and terms that vanish from `N` on, it is the segment's sum over the unpadded entries. -/
theorem padded_segment_sum {N N' : Nat} (h : N ≤ N') (rp : Fin N' → BitVec 32) (r : Fin N → BitVec 32)
    (t' : Fin N' → EReal) (t : Fin N → EReal) (p : Int)
    (hr : ∀ i : Fin N, rp (Fin.castLE h i) = r i) (ht : ∀ i : Fin N, t' (Fin.castLE h i) = t i)
    (hz : ∀ i : Fin N', N ≤ i.val → t' i = 0) :
    ∑ i ∈ Finset.univ.filter (fun i : Fin N' => (rp i).toInt = p), t' i
      = ∑ i ∈ Finset.univ.filter (fun i : Fin N => (r i).toInt = p), t i := by
  rw [sum_filter_castLE h (fun i : Fin N' => (rp i).toInt = p) t' hz]
  refine Finset.sum_congr ?_ (fun i _ => ht i)
  exact Finset.filter_congr (fun i _ => by rw [hr i])

end Cert.Spec

end
-- ==== Proof.PreRead.lean ====
/-
  What the stated domain says of each column word, and what follows for the take's range test.

  The precondition is a conjunction of three whole-array tests reduced with "and"; its third conjunct tests every
  column word `c` for `0 ≤ c` and `c < 513000` as signed words. Read back entry by entry it gives `ColInRange`
  of every column word. A word in that range is not negative, so wrapping leaves it alone, and it passes the two
  tests of a filling take (`0 ≤ c` and `c ≤ 512999`).
-/
import proofs.«426425_j15951508538156_3_alg».proof.Pre_finite_inputs
import proofs.«426425_j15951508538156_3_alg».proof.Proof.Spec
import Idealize.ShloMosaic.Lib.ReduceAll
import Idealize.ShloMosaic.Lib.StableHlo.Predicate

noncomputable section

namespace Cert.PreRead

open Idealize.ShloMosaic Idealize.ShloMosaic.ValueIdx Cert.Spec

/-- The shape of a scalar has exactly one index. -/
instance : Subsingleton Cert.Pre_finite_inputs.S_.Idx := ⟨fun _ _ => funext fun d => d.elim0⟩

/-- Every column word satisfies the stated domain, when the printed precondition is all ones. -/
theorem cols_in_range [Cert.Pre_finite_inputs.Facts]
    (a0 : FVec Ideal Cert.Pre_finite_inputs.S5x1000x513x1 .f32) (a1 : FVec Ideal Cert.Pre_finite_inputs.S20000000 .f32)
    (a2 a3 : IVec Cert.Pre_finite_inputs.S20000000 32)
    (h : Cert.Pre_finite_inputs.fn (F := Ideal) a0 a1 a2 a3 = fun _ => 1#1) :
    ∀ i : Cert.Pre_finite_inputs.S20000000.Idx, ColInRange (a3 i) := by
  intro i
  -- the one entry of the scalar result, with the chain of operations laid open
  have h0 := congrFun h ValueIdx.ix0
  dsimp only [Cert.Pre_finite_inputs.fn] at h0
  -- the outer "and": its second operand is the reduction of the column test over the whole array
  have h1 := (IntOp.andi_eq_one.1 h0).2
  -- a reduction by "and" that came out 1 met a 1 at every entry, so at entry i
  have h2 := Host.reduce_andi_all _ _ _ _ _ h1 i
  -- the entry's "and" of the two compares; the two broadcast constants read 0 and 513000 at i
  obtain ⟨hge, hlt⟩ := IntOp.andi_eq_one.1 h2
  exact ⟨hge, hlt⟩

/-- A word in the stated domain is not negative: wrapping leaves it alone. -/
theorem wrapCol_of_inRange (c : BitVec 32) (h : ColInRange c) : wrapCol c = c := by
  -- 0 ≤ c as signed words, so the test "c < 0" is not 1 and the select keeps c
  have h1 := IntOp.cmpi_sge.1 h.1
  have hn : ¬ IntOp.cmpi .slt c 0#32 = 1#1 := fun e => by
    have h2 := IntOp.cmpi_slt.1 e
    omega
  unfold wrapCol Scalar.select
  exact if_neg hn

/-- A word in the stated domain passes the take's range test. -/
theorem colOk_of_inRange (c : BitVec 32) (h : ColInRange c) : ColOk c := by
  unfold ColOk
  rw [wrapCol_of_inRange c h]
  refine ⟨h.1, IntOp.cmpi_sle.2 ?_⟩
  -- c < 513000 as signed words gives c ≤ 512999
  have h2 := IntOp.cmpi_slt.1 h.2
  have e1 : (513000#32 : BitVec 32).toInt = 513000 := by decide
  have e2 : (512999#32 : BitVec 32).toInt = 512999 := by decide
  omega

/-- The zero word (what the padded tail of the column array holds) passes the take's range test. -/
theorem colOk_zero : ColOk 0#32 := by
  unfold ColOk wrapCol
  exact ⟨by decide, by decide⟩

/-- The zero word reads column 0. -/
theorem colAt_zero : colAt 0#32 = ⟨0, by decide⟩ := by
  apply Fin.ext
  unfold colAt wrapCol
  decide

end Cert.PreRead

end
-- ==== Proof.KernelValue.lean ====
/-
  The kernel's two sums are the back-projection and the sensitivity image.

  After the region the host runs one segment sum over 20971520 padded entries with six values each: the five weighted
  activations and the weight. Read at segment `p`, column `b < 5`, it is the sum over the padded entries whose row
  word is `p` of (sinogram row `b` at the entry's column) × (the entry's weight): the region multiplied the gathered
  activation by the weight entrywise, and with every column word inside the sinogram's axis the take never fills, so
  the gathered activation is the sinogram sample. The 971520 padded entries carry weight zero and contribute nothing,
  whatever their row word; on the first 20000000 entries the padded arrays are the arguments. What remains is the
  sum over the argument's entries, with the two factors in the other order. Column 5 is the same with the weight alone.
-/
import proofs.«426425_j15951508538156_3_alg».proof.Proof.Region
import proofs.«426425_j15951508538156_3_alg».proof.Proof.Prefix
import proofs.«426425_j15951508538156_3_alg».proof.Proof.Tail
import proofs.«426425_j15951508538156_3_alg».proof.Proof.LibSegmentSumHost
import proofs.«426425_j15951508538156_3_alg».proof.Proof.Sums
import proofs.«426425_j15951508538156_3_alg».proof.Proof.PreRead

set_option maxRecDepth 16384

noncomputable section

namespace Cert.KernelIdeal.KValue

open Cert.KernelIdeal Cert.KernelIdeal.Gen Cert.KernelIdeal.Region Cert.KernelIdeal.Prefix Cert.KernelIdeal.Tail
open Cert.Spec Cert.PreRead
open Idealize.ShloMosaic Idealize.ShloMosaic.TcCoe Idealize.ShloMosaic.ValueIdx Idealize.ShloMosaic.SegmentSum Idealize.SL.Sem

variable (m : (ℓ : Loc nD τ sig) → Buf (Elt Ideal) ℓ)

/-- With every column word of the argument in its stated domain, every padded column word passes the take's range
    test: the argument's words by the domain, the padding's zero word by itself. -/
theorem colsPad_ok (c : Dev nD) (hcols : ∀ i : S20000000.Idx, ColInRange (colsArg m c i)) (k : Fin 20971520) :
    ColOk (colsPad m c (ix1 k)) := by
  rw [colsPad_apply]
  split
  · exact colOk_of_inRange _ (hcols _)
  · exact colOk_zero

/-- The one segment sum at segment `p`, column `cc`: the sum over the padded entries whose row word is `p` of
    column `cc` of the updates (the operand is zero). -/
theorem scatK_apply (W : FVec Ideal S5x163840x128 .f32) (vp : FVec Ideal S20971520 .f32) (rp : IVec S20971520 32)
    (p : Fin 131044) (cc : Fin 6) :
    scatK W vp rp (ix2 p cc)
      = ∑ i ∈ Finset.univ.filter (fun i : Fin 20971520 => (rp (ix1 i)).toInt = (p.val : Int)), updK W vp (ix2 i cc) := by
  have hd : scatter_S131044x6_S20971520x1_S20971520x6_1_0_0_1
      = dimsCols 131044 6 20971520 scatter_S131044x6_S20971520x1_S20971520x6_1_0_0_1_wf := rfl
  unfold scatK
  rw [hd, scatterAdd_cols_host, zerosK_apply, zero_add]
  exact Finset.sum_congr (Finset.filter_congr fun i _ => by rw [Tail.rowsCol_apply]) (fun _ _ => rfl)

/-- The gathered activation at (b, r, l), when the take never fills: sinogram row `b` at the column that padded
    column word 128 r + l names. -/
theorem gArr_apply (c : Dev nD) (hok : ∀ k : Fin 20971520, ColOk (colsPad m c (ix1 k)))
    (b : Fin 5) (r : Fin 163840) (l : Fin 128) :
    gArr m c (ix3 b r l)
      = sinoFlat m c (ix2 b (colAt (colsPad m c (ix1 ⟨r.val * 128 + l.val, by have := r.isLt; have := l.isLt; omega⟩)))) := by
  refine (gathered_apply m c hok b r l).trans ?_
  refine (gather_cols_apply (B := 5) (N := 513000) (n := 20971520) (by decide)
    gather_S5x513000_S20971520x1_S5x20971520_0_1_n_n_1_1_51_wf (sinoFlat m c) (colsWrapped m c) b _).trans ?_
  refine congrArg (fun k => sinoFlat m c (ix2 b k)) (Fin.ext ?_)
  show min (colsWrapped m c (colIx _)).toInt.toNat (513000 - 1) = min (wrapCol (colsPad m c (ix1 _))).toInt.toNat 512999
  rw [colsWrapped_apply]

/-- Update `i`, column `b < 5`, over the array the region wrote: the sinogram sample times the padded weight. -/
theorem upd_rec_apply (c : Dev nD) (hok : ∀ k : Fin 20971520, ColOk (colsPad m c (ix1 k)))
    (W : FVec Ideal S5x163840x128 .f32) (hW : W = fun y => gArr m c y * vArr m c (ix2 (y 1) (y 2)))
    (b : Fin 5) (i : Fin 20971520) :
    updK W (valsPad m c) (ix2 i ⟨b.val, by have := b.isLt; omega⟩)
      = sinoFlat m c (ix2 b (colAt (colsPad m c (ix1 i)))) * valsPad m c (ix1 i) := by
  have hk : (⟨i.val / 128 * 128 + i.val % 128, by have := i.isLt; omega⟩ : Fin 20971520) = i :=
    Fin.ext (Nat.div_add_mod' i.val 128)
  rw [updK_apply_lt, hW]
  show gArr m c (ix3 b ⟨i.val / 128, _⟩ ⟨i.val % 128, _⟩) * vArr m c (ix2 ⟨i.val / 128, _⟩ ⟨i.val % 128, _⟩) = _
  rw [gArr_apply m c hok]
  unfold vArr
  rw [weights_apply, hk]

/-- Back-projection `b` at pixel `p`, from the kernel's segment sum. -/
theorem recK_eq (c : Dev nD) (hcols : ∀ i : S20000000.Idx, ColInRange (colsArg m c i))
    (W : FVec Ideal S5x163840x128 .f32) (hW : W = fun y => gArr m c y * vArr m c (ix2 (y 1) (y 2)))
    (b : Fin 5) (p : Fin 131044) :
    recK W (valsPad m c) (rowsPad m c) (ix2 b p)
      = recSum (sinoFlat m c) (valsArg m c) (rowsArg m c) (colsArg m c) b p := by
  have hok := colsPad_ok m c hcols
  have hle : 20000000 ≤ 20971520 := by decide
  rw [recK_apply, scatK_apply]
  unfold recSum
  refine padded_segment_sum hle (fun i => rowsPad m c (ix1 i)) (fun i => rowsArg m c (ix1 i))
    (fun i => updK W (valsPad m c) (ix2 i ⟨b.val, by have := b.isLt; omega⟩))
    (fun i => valsArg m c (ix1 i) * sinoFlat m c (ix2 b (colAt (colsArg m c (ix1 i))))) (p.val : Int) ?_ ?_ ?_
  · intro i
    show rowsPad m c (ix1 (Fin.castLE hle i)) = rowsArg m c (ix1 i)
    rw [rowsPad_apply, dif_pos (show (Fin.castLE hle i).val < 20000000 from i.isLt)]
    rfl
  · intro i
    show updK W (valsPad m c) (ix2 (Fin.castLE hle i) ⟨b.val, _⟩) = _
    rw [upd_rec_apply m c hok W hW, colsPad_apply, valsPad_apply,
      dif_pos (show (Fin.castLE hle i).val < 20000000 from i.isLt),
      dif_pos (show (Fin.castLE hle i).val < 20000000 from i.isLt)]
    exact mul_comm _ _
  · intro i hi
    show updK W (valsPad m c) (ix2 i ⟨b.val, _⟩) = 0
    rw [upd_rec_apply m c hok W hW, valsPad_apply, dif_neg (Nat.not_lt.2 hi), mul_zero]

/-- The sensitivity image at pixel `p`, from the kernel's segment sum. -/
theorem sensK_eq (c : Dev nD) (W : FVec Ideal S5x163840x128 .f32) (p : Fin 131044) :
    sensK W (valsPad m c) (rowsPad m c) (ix1 p) = sensSum (valsArg m c) (rowsArg m c) p := by
  have hle : 20000000 ≤ 20971520 := by decide
  rw [sensK_apply, scatK_apply]
  unfold sensSum
  refine padded_segment_sum hle (fun i => rowsPad m c (ix1 i)) (fun i => rowsArg m c (ix1 i))
    (fun i => updK W (valsPad m c) (ix2 i ⟨5, by decide⟩)) (fun i => valsArg m c (ix1 i)) (p.val : Int) ?_ ?_ ?_
  · intro i
    show rowsPad m c (ix1 (Fin.castLE hle i)) = rowsArg m c (ix1 i)
    rw [rowsPad_apply, dif_pos (show (Fin.castLE hle i).val < 20000000 from i.isLt)]
    rfl
  · intro i
    show updK W (valsPad m c) (ix2 (Fin.castLE hle i) ⟨5, _⟩) = _
    rw [updK_apply_last, valsPad_apply, dif_pos (show (Fin.castLE hle i).val < 20000000 from i.isLt)]
    rfl
  · intro i hi
    show updK W (valsPad m c) (ix2 i ⟨5, _⟩) = 0
    rw [updK_apply_last, valsPad_apply, dif_neg (Nat.not_lt.2 hi)]

end Cert.KernelIdeal.KValue

end
-- ==== Proof.RefValue.lean ====
/-
  The reference's two segment sums, read at an entry.

  The reference multiplies, for each of the five sinogram rows, every weight by the sinogram sample its column word
  names (a negative word counted from the end, the result clamped into the axis) and sums the products by row word
  into 131044 pixels; it sums the weights themselves the same way, divides the former by the latter entrywise and
  reshapes. Read at (b, p) the first sum is `recSum` and the second, at p, is `sensSum`: the operand of each scatter
  is zero, row `i` of the index column is row word `i`, and update (b, i) is weight `i` times the gathered sample.
-/
import proofs.«426425_j15951508538156_3_alg».proof.Proof.Gen.ReferenceIdeal.Read
import proofs.«426425_j15951508538156_3_alg».proof.Proof.LibSegmentSumHost
import proofs.«426425_j15951508538156_3_alg».proof.Proof.Sums
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.ValueIdx Idealize.ShloMosaic.SegmentSum

variable (x0 : FVec Ideal S5x1000x513x1 .f32) (x1 : FVec Ideal S20000000 .f32) (x2 x3 : IVec S20000000 32)

/-- The closing lines: each back-projection divided entrywise by the sensitivity image, reshaped to [5, 362, 362, 1]. -/
def finishR (rec : FVec Ideal S5x131044 .f32) (sens : FVec Ideal S131044 .f32) : FVec Ideal S5x362x362x1 .f32 :=
  shapeCast S5x362x362x1
    (Host.divf rec (broadcastInDim S5x131044 ![0, 1] bcast_S1x131044_S5x131044_0_1
      (broadcastInDim S1x131044 ![1] bcast_S131044_S1x131044_1 sens)))
    shapeCasts_S5x131044_S5x362x362x1

/-- The reference's result is the closing lines applied to its two segment sums. -/
theorem result_eq :
    val_main_v21 (F := Ideal) x0 x1 x2 x3
      = finishR (val_main_v14 (F := Ideal) x0 x1 x2 x3) (val_main_v17 (F := Ideal) x1 x2) := rfl

/-- Row `i` of the gather's start column is column word `i`, wrapped. -/
theorem wrapped_apply (i : Fin 20000000) : val_main_v6 (F := Ideal) x3 (colIx i) = wrapCol (x3 (ix1 i)) := by
  have e : idx_main_v6 (colIx i) = ix1 i := funext fun a => match a with | ⟨0, _⟩ => rfl
  rw [val_main_v6_apply, e, val_main_v5_apply, val_main_v2_apply, val_main_v4_apply, val_main_v1_apply, val_main_v3_apply]
  rfl

/-- Row `i` of the first scatter's index column is row word `i`. -/
theorem rowsCol_apply (i : Fin 20000000) : val_main_v12 (F := Ideal) x2 (colIx i) = x2 (ix1 i) := by
  have e : idx_main_v12 (colIx i) = ix1 i := funext fun a => match a with | ⟨0, _⟩ => rfl
  rw [val_main_v12_apply, e]

/-- Row `i` of the second scatter's index column is row word `i`. -/
theorem rowsCol'_apply (i : Fin 20000000) : val_main_v16 (F := Ideal) x2 (colIx i) = x2 (ix1 i) := by
  have e : idx_main_v16 (colIx i) = ix1 i := funext fun a => match a with | ⟨0, _⟩ => rfl
  rw [val_main_v16_apply, e]

/-- The gathered sample at (b, i): row `b` of the flattened sinogram at the column word `i` names. -/
theorem gathered_apply (b : Fin 5) (i : Fin 20000000) :
    val_main_v7 (F := Ideal) x0 x3 (ix2 b i) = val_main_v0 (F := Ideal) x0 (ix2 b (colAt (x3 (ix1 i)))) := by
  unfold val_main_v7
  refine (gather_cols_apply (B := 5) (N := 513000) (n := 20000000) (by decide)
    gather_S5x513000_S20000000x1_S5x20000000_0_1_n_n_1_1_51_wf (val_main_v0 (F := Ideal) x0) (val_main_v6 (F := Ideal) x3) b i).trans ?_
  refine congrArg (fun k => val_main_v0 (F := Ideal) x0 (ix2 b k)) (Fin.ext ?_)
  show min (val_main_v6 (F := Ideal) x3 (colIx i)).toInt.toNat (513000 - 1) = min (wrapCol (x3 (ix1 i))).toInt.toNat 512999
  rw [wrapped_apply]

/-- The product the first scatter adds at (b, i): weight `i` times the gathered sample. -/
theorem product_apply (b : Fin 5) (i : Fin 20000000) :
    val_main_v10 (F := Ideal) x0 x1 x3 (ix2 b i)
      = x1 (ix1 i) * val_main_v0 (F := Ideal) x0 (ix2 b (colAt (x3 (ix1 i)))) := by
  have e : idx_main_v8 (idx_main_v9 (ix2 b i)) = ix1 i := funext fun a => match a with | ⟨0, _⟩ => rfl
  rw [val_main_v10_apply, val_main_v9_apply, val_main_v8_apply, e, gathered_apply]
  rfl

/-- The first segment sum at (b, p) is back-projection `b` at pixel `p`. -/
theorem rec_apply (b : Fin 5) (p : Fin 131044) :
    val_main_v14 (F := Ideal) x0 x1 x2 x3 (ix2 b p) = recSum (val_main_v0 (F := Ideal) x0) x1 x2 x3 b p := by
  have hd : scatter_S5x131044_S20000000x1_S5x20000000_0_1_1_1
      = dimsRows 5 131044 20000000 scatter_S5x131044_S20000000x1_S5x20000000_0_1_1_1_wf := rfl
  unfold val_main_v14
  rw [hd, scatterAdd_rows_host]
  have hz : val_main_v13 (F := Ideal) (ix2 b p) = (0 : EReal) := by
    rw [val_main_v13_apply, val_main_v11_apply, val_main_cst_apply]; exact Ideal.ofBits_zero_f32
  rw [hz, zero_add]
  unfold recSum
  refine Finset.sum_congr (Finset.filter_congr fun i _ => by rw [rowsCol_apply]) (fun i _ => product_apply x0 x1 x3 b i)

/-- The second segment sum at p is the sensitivity image at pixel `p`. -/
theorem sens_apply (p : Fin 131044) :
    val_main_v17 (F := Ideal) x1 x2 (ix1 p) = sensSum x1 x2 p := by
  have hd : scatter_S131044_S20000000x1_S20000000_n_0_0_1
      = dimsVec 131044 20000000 scatter_S131044_S20000000x1_S20000000_n_0_0_1_wf := rfl
  unfold val_main_v17
  rw [hd, scatterAdd_vec_host]
  have hz : val_main_v15 (F := Ideal) (ix1 p) = (0 : EReal) := by
    rw [val_main_v15_apply, val_main_cst_1_apply]; exact Ideal.ofBits_zero_f32
  rw [hz, zero_add]
  unfold sensSum
  exact Finset.sum_congr (Finset.filter_congr fun i _ => by rw [rowsCol'_apply]) (fun _ _ => rfl)

end Cert.ReferenceIdeal.RefValue

end
-- ==== Proof.Bridge.lean ====
/-
  The kernel's result is the reference's result.

  Both programs end with the same lines: divide each back-projection entrywise by the sensitivity image and reshape.
  The reference's two segment sums and the kernel's two columns of its one segment sum are, entry by entry, the same
  two sums over the sparse matrix's entries (`recSum`, `sensSum`), the kernel's under the stated domain of the
  column words; so the arrays the closing lines receive are equal, and so are the results.
-/
import proofs.«426425_j15951508538156_3_alg».proof.Proof.KernelValue
import proofs.«426425_j15951508538156_3_alg».proof.Proof.RefValue

set_option maxRecDepth 16384

noncomputable section

namespace Cert.Bridge

open Cert.KernelIdeal Cert.KernelIdeal.Gen Cert.KernelIdeal.Region Cert.KernelIdeal.Prefix Cert.KernelIdeal.Tail
open Cert.KernelIdeal.KValue Cert.Spec
open Idealize.ShloMosaic Idealize.ShloMosaic.TcCoe Idealize.ShloMosaic.ValueIdx Idealize.SL.Sem

variable (m : (ℓ : Loc nD τ sig) → Buf (Elt Ideal) ℓ)

/-- The reference's first segment sum, over the kernel's arguments, is the kernel's array of back-projections. -/
theorem rec_eq (c : Dev nD) (hcols : ∀ i : S20000000.Idx, ColInRange (colsArg m c i))
    (W : FVec Ideal S5x163840x128 .f32) (hW : W = fun y => gArr m c y * vArr m c (ix2 (y 1) (y 2))) :
    Cert.ReferenceIdeal.Read.val_main_v14 (F := Ideal) (sinoArg m c) (valsArg m c) (rowsArg m c) (colsArg m c)
      = recK W (valsPad m c) (rowsPad m c) := by
  funext j
  obtain ⟨b, p, rfl⟩ : ∃ (b : Fin 5) (p : Fin 131044), j = ix2 b p := ⟨j 0, j 1, eq_ix2 j⟩
  rw [Cert.ReferenceIdeal.RefValue.rec_apply, recK_eq m c hcols W hW, sinoFlat_eq]
  rfl

/-- The reference's second segment sum, over the kernel's arguments, is the kernel's sensitivity image. -/
theorem sens_eq (c : Dev nD) (W : FVec Ideal S5x163840x128 .f32) :
    Cert.ReferenceIdeal.Read.val_main_v17 (F := Ideal) (valsArg m c) (rowsArg m c)
      = sensK W (valsPad m c) (rowsPad m c) := by
  funext j
  obtain ⟨p, rfl⟩ : ∃ p : Fin 131044, j = ix1 p := ⟨j 0, eq_ix1 j⟩
  rw [Cert.ReferenceIdeal.RefValue.sens_apply, sensK_eq m c W]

/-- The reference's result over the kernel's arguments is what the kernel's closing lines make of the array the
    region wrote, the padded weights and the padded rows. -/
theorem reference_eq_kernel (c : Dev nD) (hcols : ∀ i : S20000000.Idx, ColInRange (colsArg m c i)) :
    Cert.ReferenceIdeal.Read.val_main_v21 (F := Ideal) (sinoArg m c) (valsArg m c) (rowsArg m c) (colsArg m c)
      = finishK (recK ((dats m 0 c).arrAt 2 cfg0.N) (V m c main_v2) (V m c main_v3))
          (sensK ((dats m 0 c).arrAt 2 cfg0.N) (V m c main_v2) (V m c main_v3)) := by
  rw [Cert.ReferenceIdeal.RefValue.result_eq,
    rec_eq m c hcols ((dats m 0 c).arrAt 2 cfg0.N) (region_value m c),
    sens_eq m c ((dats m 0 c).arrAt 2 cfg0.N)]
  rfl

end Cert.Bridge

end
-- ==== Proof.lean ====
/-
  A sparse back-projection with a sensitivity normalisation: the kernel against its reference, over the extended reals.

  The operator: a sparse matrix of 20000000 entries (weight, pixel row word, sinogram column word) applied to each
  of five flattened sinograms, the result divided entrywise by the matrix applied to the all-ones sinogram. The
  reference computes a segment sum per sinogram and one for the weights. The kernel pads the three entry arrays
  with 971520 zero entries, gathers the sinogram samples with a take that fills out-of-range reads with a junk value,
  multiplies them by the weights in a tiled elementwise kernel, and runs a single six-column segment sum.

  Stated domain: every column word names an entry of the flattened sinogram axis, `0 ≤ c < 513000`. Outside it the
  reference's own indexing is out of range, and the two programs differ (the take fills, the reference clamps).
  Under it the take never fills; the zero-weight padding adds nothing to any pixel; products commute; so the two
  arrays handed to the common closing lines are equal entry by entry (Proof/Bridge.lean). The frames of the two
  kernel programs are the generated ones; the reference's frame is its generated run; no rewrite was made by the
  ideal pass, so the idealization's statement is trivial.
-/
import proofs.«426425_j15951508538156_3_alg».proof.Defs
import proofs.«426425_j15951508538156_3_alg».proof.Proof.Gen.Kernel
import proofs.«426425_j15951508538156_3_alg».proof.Proof.Gen.Kernel.Skeleton
import proofs.«426425_j15951508538156_3_alg».proof.Proof.Gen.Kernel.Launch
import proofs.«426425_j15951508538156_3_alg».proof.Proof.Gen.Kernel.Points
import proofs.«426425_j15951508538156_3_alg».proof.Proof.Gen.Kernel.Frame
import proofs.«426425_j15951508538156_3_alg».proof.Proof.Gen.KernelIdeal
import proofs.«426425_j15951508538156_3_alg».proof.Proof.Gen.KernelIdeal.Skeleton
import proofs.«426425_j15951508538156_3_alg».proof.Proof.Gen.KernelIdeal.Launch
import proofs.«426425_j15951508538156_3_alg».proof.Proof.Gen.KernelIdeal.Points
import proofs.«426425_j15951508538156_3_alg».proof.Proof.Gen.KernelIdeal.Frame
import proofs.«426425_j15951508538156_3_alg».proof.Proof.Gen.ReferenceIdeal
import proofs.«426425_j15951508538156_3_alg».proof.Proof.Gen.Pre_finite_inputs
import proofs.«426425_j15951508538156_3_alg».proof.Proof.Gen.ReferenceIdeal.Run
import proofs.«426425_j15951508538156_3_alg».proof.Proof.Gen.ReferenceIdeal.Read
import proofs.«426425_j15951508538156_3_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

section Algebraic

open Cert.KernelIdeal Cert.KernelIdeal.Gen Cert.KernelIdeal.Prefix Cert.KernelIdeal.Tail

/-- Both programs run; the kernel's result buffer ends at its closing lines' value (the generated frame run, the
    host lines after the region read back), the reference's at its run's term, which over arguments that agree is
    the same array (`Cert.Bridge.reference_eq_kernel`, under the stated domain read off the precondition). -/
theorem algebraic : Cert.algebraic_KernelIdeal_ReferenceIdeal := by
  intro m ρ m' ρ' hpre hagree
  have hcols : ∀ c : Dev nD, ∀ i : S20000000.Idx, Cert.Spec.ColInRange (colsArg m c i) := fun c =>
    Cert.PreRead.cols_in_range _ _ _ _ (hpre c)
  refine ⟨fun c => finishK (recK ((dats m 0 c).arrAt 2 cfg0.N) (V m c main_v2) (V m c main_v3))
      (sensK ((dats m 0 c).arrAt 2 cfg0.N) (V m c main_v2) (V m c main_v3)), ?_, ?_⟩
  · refine (θ_run defs _ _).mono (fun r h c => ⟨?_, ?_, ?_, ?_, ?_⟩) (run_main m ρ)
    · exact ((h c).2 main_v22 (Pipeline.mem_restRefs_of main_v22 (by decide) (by decide))).trans (tail_eq m c)
    · exact ((h c).2 main_arg0 (Pipeline.mem_restRefs_of main_arg0 (by decide) (by decide))).trans (W_main_arg0 m (dats m) c)
    · exact ((h c).2 main_arg1 (Pipeline.mem_restRefs_of main_arg1 (by decide) (by decide))).trans (W_main_arg1 m (dats m) c)
    · exact ((h c).2 main_arg2 (Pipeline.mem_restRefs_of main_arg2 (by decide) (by decide))).trans (W_main_arg2 m (dats m) c)
    · exact ((h c).2 main_arg3 (Pipeline.mem_restRefs_of main_arg3 (by decide) (by decide))).trans (W_main_arg3 m (dats m) c)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v21_eq _ _ _ _).trans (Cert.Bridge.reference_eq_kernel m c (hcols c))

end Algebraic

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
